-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x128 : Shape := ⟨2, ![2000000, 128]⟩
abbrev S2000000 : Shape := ⟨1, ![2000000]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel

variable [Facts]

def fn {F : FTy → Type} [FloatOps F] (main_arg0 : FVec F S2000000x128 .f32) (main_arg1 : IVec S2000000 32) : IVec S_ 1 :=
  let main_v0 : FVec F S2000000x128 .f32 := Host.absf main_arg0
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  main_v3
-- ==== Kernel.lean ====
abbrev S2000000x128 : Shape := ⟨2, ![2000000, 128]⟩
abbrev S2000000 : Shape := ⟨1, ![2000000]⟩
abbrev S2x32x128 : Shape := ⟨3, ![2, 32, 128]⟩
abbrev S2x32x1 : Shape := ⟨3, ![2, 32, 1]⟩
abbrev S16384x128 : Shape := ⟨2, ![16384, 128]⟩
abbrev S16384 : Shape := ⟨1, ![16384]⟩
abbrev S1x32x128 : Shape := ⟨3, ![1, 32, 128]⟩
abbrev S1x32x1 : Shape := ⟨3, ![1, 32, 1]⟩
abbrev S32x128 : Shape := ⟨2, ![32, 128]⟩
abbrev S32x1 : Shape := ⟨2, ![32, 1]⟩
abbrev S32x16384 : Shape := ⟨2, ![32, 16384]⟩
abbrev S1x16384 : Shape := ⟨2, ![1, 16384]⟩
abbrev S32 : Shape := ⟨1, ![32]⟩
abbrev S_ : Shape := ⟨0, ![]⟩
abbrev S32x1x128 : Shape := ⟨3, ![32, 1, 128]⟩
abbrev S32x32x128 : Shape := ⟨3, ![32, 32, 128]⟩
abbrev S32x32 : Shape := ⟨2, ![32, 32]⟩

abbrev nBuf : Space → Nat
  | .hbm => 42
  | .vmem => 8
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S2x32x128, .f32⟩
  | .hbm, ⟨3, _⟩ => ⟨S2x32x1, .f32⟩
  | .hbm, ⟨4, _⟩ => ⟨S_, .f32⟩
  | .hbm, ⟨5, _⟩ => ⟨S32x128, .f32⟩
  | .hbm, ⟨6, _⟩ => ⟨S_, .f32⟩
  | .hbm, ⟨7, _⟩ => ⟨S32x1, .f32⟩
  | .hbm, ⟨8, _⟩ => ⟨S32x128, .f32⟩
  | .hbm, ⟨9, _⟩ => ⟨S32x128, .f32⟩
  | .hbm, ⟨10, _⟩ => ⟨S32x1x128, .f32⟩
  | .hbm, ⟨11, _⟩ => ⟨S1x32x128, .f32⟩
  | .hbm, ⟨12, _⟩ => ⟨S32x32x128, .f32⟩
  | .hbm, ⟨13, _⟩ => ⟨S32x32x128, .f32⟩
  | .hbm, ⟨14, _⟩ => ⟨S32x32x128, .f32⟩
  | .hbm, ⟨15, _⟩ => ⟨S32x32x128, .f32⟩
  | .hbm, ⟨16, _⟩ => ⟨S_, .f32⟩
  | .hbm, ⟨17, _⟩ => ⟨S32x32, .f32⟩
  | .hbm, ⟨18, _⟩ => ⟨S_, .i1⟩
  | .hbm, ⟨19, _⟩ => ⟨S32x32, .i1⟩
  | .hbm, ⟨20, _⟩ => ⟨S32x32, .i32⟩
  | .hbm, ⟨21, _⟩ => ⟨S_, .i32⟩
  | .hbm, ⟨22, _⟩ => ⟨S32x32, .i32⟩
  | .hbm, ⟨23, _⟩ => ⟨S32x32, .i32⟩
  | .hbm, ⟨24, _⟩ => ⟨S32x32, .i32⟩
  | .hbm, ⟨25, _⟩ => ⟨S32x32, .i1⟩
  | .hbm, ⟨26, _⟩ => ⟨S_, .i1⟩
  | .hbm, ⟨27, _⟩ => ⟨S32x32, .i1⟩
  | .hbm, ⟨28, _⟩ => ⟨S32x32, .i1⟩
  | .hbm, ⟨29, _⟩ => ⟨S_, .f32⟩
  | .hbm, ⟨30, _⟩ => ⟨S_, .f32⟩
  | .hbm, ⟨31, _⟩ => ⟨S32x32, .f32⟩
  | .hbm, ⟨32, _⟩ => ⟨S32x32, .f32⟩
  | .hbm, ⟨33, _⟩ => ⟨S32x32, .f32⟩
  | .hbm, ⟨34, _⟩ => ⟨S_, .f32⟩
  | .hbm, ⟨35, _⟩ => ⟨S_, .f32⟩
  | .hbm, ⟨36, _⟩ => ⟨S32x32, .f32⟩
  | .hbm, ⟨37, _⟩ => ⟨S32x32, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384, .i32⟩
  | .local _ .vmem, ⟨3, _⟩ => ⟨S16384, .i32⟩
  | .local _ .vmem, ⟨4, _⟩ => ⟨S1x32x128, .f32⟩
  | .local _ .vmem, ⟨5, _⟩ => ⟨S1x32x128, .f32⟩
  | .local _ .vmem, ⟨6, _⟩ => ⟨S1x32x1, .f32⟩
  | .local _ .vmem, ⟨7, _⟩ => ⟨S1x32x1, .f32⟩
  | _, _ => ⟨S2000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v13 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call2_v0 : Ref sig .tc := ⟨.hbm, 35, rfl⟩
abbrev main_call2_v1 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 62], ![false, false]⟩

def cc0_transform_0 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c122_i32 : BitVec 32 := 122#32
  let v2 : BitVec 32 := Scalar.minsi v1 c122_i32
  let c0_i32 : BitVec 32 := 0#32
  let c0_i32_0 : BitVec 32 := 0#32
  ![v2.toNat, c0_i32.toNat]

def cc0_transform_1 (i : grid0.Coords) : Fin 1 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c122_i32 : BitVec 32 := 122#32
  let v2 : BitVec 32 := Scalar.minsi v1 c122_i32
  let c0_i32 : BitVec 32 := 0#32
  ![v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  iota_S32x16384_d1_w32 : S32x16384.Iotas .tc 32 [1]
  inb_S16384_S16384_0 : ∀ a, (![0] : Fin 1 → Nat) a + S16384.size a ≤ S16384.size a
  h_S16384 : 0 < S16384.numel
  iota_S32x16384_d0_w32 : S32x16384.Iotas .tc 32 [0]
  shapeCasts_S16384_S1x16384 : S16384.ShapeCasts S1x16384
  shapeCasts_S1x16384_S1x16384 : S1x16384.ShapeCasts S1x16384
  broadcasts_S1x16384_S32x16384 : S1x16384.Broadcasts S32x16384
  inb_S16384x128_S16384x128_0_0 : ∀ a, (![0, 0] : Fin 2 → Nat) a + S16384x128.size a ≤ S16384x128.size a
  h_S16384x128 : 0 < S16384x128.numel
  bitsLt_bf16_f32 : FTy.bits .bf16 < FTy.bits .f32
  natLt_1_32 : 1 < 32
  reduces_S32x16384_S32 : S32x16384.Reduces [1] S32
  shapeCasts_S32_S32x1 : S32.ShapeCasts S32x1
  reducesTo_S2x32x128_S32x128_d0 : S2x32x128.ReducesTo [0] S32x128
  h_S_ : 0 < S_.numel
  reducesTo_S2x32x1_S32x1_d0 : S2x32x1.ReducesTo [0] S32x1
  bcast_S32x1_S32x128_0_1 : S32x1.BroadcastsInDim S32x128 (![0, 1] : Fin 2 → Fin S32x128.rank)
  bcast_S32x128_S32x1x128_0_2 : S32x128.BroadcastsInDim S32x1x128 (![0, 2] : Fin 2 → Fin S32x1x128.rank)
  bcast_S32x128_S1x32x128_1_2 : S32x128.BroadcastsInDim S1x32x128 (![1, 2] : Fin 2 → Fin S1x32x128.rank)
  bcast_S32x1x128_S32x32x128_0_1_2 : S32x1x128.BroadcastsInDim S32x32x128 (![0, 1, 2] : Fin 3 → Fin S32x32x128.rank)
  bcast_S1x32x128_S32x32x128_0_1_2 : S1x32x128.BroadcastsInDim S32x32x128 (![0, 1, 2] : Fin 3 → Fin S32x32x128.rank)
  reducesTo_S32x32x128_S32x32_d2 : S32x32x128.ReducesTo [2] S32x32
  bcast_S_S32x32 : S_.BroadcastsInDim S32x32 (![] : Fin 0 → Fin S32x32.rank)
  reducesTo_S32x32_S_d0_1 : S32x32.ReducesTo [0, 1] S_
  dot_S32x16384_S16384x128_S32x128_1_0_0_1_n_n_wf : DotDims.WF S32x16384 S16384x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x128.size a < S2000000x128.size a
  hwx0_0 : ∀ i : grid0.Coords, EltTy.bits .f32 = 32 ∨ (Rect.unit (s := S2000000x128) (fun a => cc0_transform_0 i a * S16384x128.size a) (fun a => (Pipeline.Clip.of (cc0_transform_0 i a) (S16384x128.size a) (S2000000x128.size a)).extent (S16384x128.size a)) fun a => Pipeline.Clip.inb (Pipeline.Clip.ok_of (hstart0_0 i a))).WholeWords (EltTy.packing .f32)
  hwxs0_0 : ∀ i : grid0.Coords, EltTy.bits .f32 = 32 ∨ (Rect.unit (s := S16384x128) (fun _ => 0) (fun a => (Pipeline.Clip.of (cc0_transform_0 i a) (S16384x128.size a) (S2000000x128.size a)).extent (S16384x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384.size a < S2000000.size a
  hwx0_1 : ∀ i : grid0.Coords, EltTy.bits .i32 = 32 ∨ (Rect.unit (s := S2000000) (fun a => cc0_transform_1 i a * S16384.size a) (fun a => (Pipeline.Clip.of (cc0_transform_1 i a) (S16384.size a) (S2000000.size a)).extent (S16384.size a)) fun a => Pipeline.Clip.inb (Pipeline.Clip.ok_of (hstart0_1 i a))).WholeWords (EltTy.packing .i32)
  hwxs0_1 : ∀ i : grid0.Coords, EltTy.bits .i32 = 32 ∨ (Rect.unit (s := S16384) (fun _ => 0) (fun a => (Pipeline.Clip.of (cc0_transform_1 i a) (S16384.size a) (S2000000.size a)).extent (S16384.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S2x32x128.size a
  hwx0_2 : ∀ i : grid0.Coords, EltTy.bits .f32 = 32 ∨ (Rect.block (s := S2x32x128) S1x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1.size a ≤ S2x32x1.size a
  hwx0_3 : ∀ i : grid0.Coords, EltTy.bits .f32 = 32 ∨ (Rect.block (s := S2x32x1) S1x32x1.size (cc0_transform_3 i) (hinb0_3 i)).WholeWords (EltTy.packing .f32)

variable [Facts₀]

def dot_S32x16384_S16384x128_S32x128_1_0_0_1_n_n : DotDims S32x16384 S16384x128 S32x128 where
  lhsContracting := [1]
  rhsContracting := [0]
  lhsNonContracting := [0]
  rhsNonContracting := [1]
  lhsBatch := []
  rhsBatch := []
  wf := dot_S32x16384_S16384x128_S32x128_1_0_0_1_n_n_wf

abbrev win0_0 : Pipeline.Window sig grid0 :=
  Pipeline.Window.ofSpecClip (Memref.whole main_arg0) S16384x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S16384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0_0) S1x32x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x128 : Shape := ⟨2, ![2000000, 128]⟩
abbrev S2000000 : Shape := ⟨1, ![2000000]⟩
abbrev S_ : Shape := ⟨0, ![]⟩
abbrev S32x128 : Shape := ⟨2, ![32, 128]⟩
abbrev S2000000x1 : Shape := ⟨2, ![2000000, 1]⟩
abbrev S32 : Shape := ⟨1, ![32]⟩
abbrev S32x1 : Shape := ⟨2, ![32, 1]⟩
abbrev S32x1x128 : Shape := ⟨3, ![32, 1, 128]⟩
abbrev S1x32x128 : Shape := ⟨3, ![1, 32, 128]⟩
abbrev S32x32x128 : Shape := ⟨3, ![32, 32, 128]⟩
abbrev S32x32 : Shape := ⟨2, ![32, 32]⟩

abbrev nBuf : Space → Nat
  | .hbm => 47
  | .vmem => 0
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S_, .f32⟩
  | .hbm, ⟨3, _⟩ => ⟨S32x128, .f32⟩
  | .hbm, ⟨4, _⟩ => ⟨S2000000x1, .i32⟩
  | .hbm, ⟨5, _⟩ => ⟨S32x128, .f32⟩
  | .hbm, ⟨6, _⟩ => ⟨S_, .f32⟩
  | .hbm, ⟨7, _⟩ => ⟨S2000000, .f32⟩
  | .hbm, ⟨8, _⟩ => ⟨S_, .f32⟩
  | .hbm, ⟨9, _⟩ => ⟨S32, .f32⟩
  | .hbm, ⟨10, _⟩ => ⟨S2000000x1, .i32⟩
  | .hbm, ⟨11, _⟩ => ⟨S32, .f32⟩
  | .hbm, ⟨12, _⟩ => ⟨S32x1, .f32⟩
  | .hbm, ⟨13, _⟩ => ⟨S32x128, .f32⟩
  | .hbm, ⟨14, _⟩ => ⟨S32x128, .f32⟩
  | .hbm, ⟨15, _⟩ => ⟨S32x1x128, .f32⟩
  | .hbm, ⟨16, _⟩ => ⟨S1x32x128, .f32⟩
  | .hbm, ⟨17, _⟩ => ⟨S32x32x128, .f32⟩
  | .hbm, ⟨18, _⟩ => ⟨S32x32x128, .f32⟩
  | .hbm, ⟨19, _⟩ => ⟨S32x32x128, .f32⟩
  | .hbm, ⟨20, _⟩ => ⟨S32x32x128, .f32⟩
  | .hbm, ⟨21, _⟩ => ⟨S_, .f32⟩
  | .hbm, ⟨22, _⟩ => ⟨S32x32, .f32⟩
  | .hbm, ⟨23, _⟩ => ⟨S_, .i1⟩
  | .hbm, ⟨24, _⟩ => ⟨S32x32, .i1⟩
  | .hbm, ⟨25, _⟩ => ⟨S32x32, .i32⟩
  | .hbm, ⟨26, _⟩ => ⟨S_, .i32⟩
  | .hbm, ⟨27, _⟩ => ⟨S32x32, .i32⟩
  | .hbm, ⟨28, _⟩ => ⟨S32x32, .i32⟩
  | .hbm, ⟨29, _⟩ => ⟨S32x32, .i32⟩
  | .hbm, ⟨30, _⟩ => ⟨S32x32, .i1⟩
  | .hbm, ⟨31, _⟩ => ⟨S_, .i1⟩
  | .hbm, ⟨32, _⟩ => ⟨S32x32, .i1⟩
  | .hbm, ⟨33, _⟩ => ⟨S32x32, .i1⟩
  | .hbm, ⟨34, _⟩ => ⟨S_, .f32⟩
  | .hbm, ⟨35, _⟩ => ⟨S_, .f32⟩
  | .hbm, ⟨36, _⟩ => ⟨S32x32, .f32⟩
  | .hbm, ⟨37, _⟩ => ⟨S32x32, .f32⟩
  | .hbm, ⟨38, _⟩ => ⟨S32x32, .f32⟩
  | .hbm, ⟨39, _⟩ => ⟨S_, .f32⟩
  | .hbm, ⟨40, _⟩ => ⟨S_, .f32⟩
  | .hbm, ⟨41, _⟩ => ⟨S32x32, .f32⟩
  | .hbm, ⟨42, _⟩ => ⟨S32x32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S2000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v18 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_call2_v0 : Ref sig .tc := ⟨.hbm, 40, rfl⟩
abbrev main_call2_v1 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_cst_6 : Ref sig .tc := ⟨.hbm, 45, rfl⟩
abbrev main_v23 : Ref sig .tc := ⟨.hbm, 46, rfl⟩

abbrev nD : Nat := 1
abbrev τ : Topo := Topo.v7x

variable {F : FTy → Type} [FloatOps F]

class Facts₀ : Prop where
  bcast_S_S32x128 : S_.BroadcastsInDim S32x128 (![] : Fin 0 → Fin S32x128.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S_S32 : S_.BroadcastsInDim S32 (![] : Fin 0 → Fin S32.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  bcast_S32x128_S32x1x128_0_2 : S32x128.BroadcastsInDim S32x1x128 (![0, 2] : Fin 2 → Fin S32x1x128.rank)
  bcast_S32x128_S1x32x128_1_2 : S32x128.BroadcastsInDim S1x32x128 (![1, 2] : Fin 2 → Fin S1x32x128.rank)
  bcast_S32x1x128_S32x32x128_0_1_2 : S32x1x128.BroadcastsInDim S32x32x128 (![0, 1, 2] : Fin 3 → Fin S32x32x128.rank)
  bcast_S1x32x128_S32x32x128_0_1_2 : S1x32x128.BroadcastsInDim S32x32x128 (![0, 1, 2] : Fin 3 → Fin S32x32x128.rank)
  reducesTo_S32x32x128_S32x32_d2 : S32x32x128.ReducesTo [2] S32x32
  h_S_ : 0 < S_.numel
  bcast_S_S32x32 : S_.BroadcastsInDim S32x32 (![] : Fin 0 → Fin S32x32.rank)
  reducesTo_S32x32_S_d0_1 : S32x32.ReducesTo [0, 1] S_
  scatter_S32x128_S2000000x1_S2000000x128_1_0_0_1_wf : ScatterDims.WF S32x128 S2000000x1 S2000000x128 [1] [0] [0] 1
  scatter_S32_S2000000x1_S2000000_n_0_0_1_wf : ScatterDims.WF S32 S2000000x1 S2000000 [] [0] [0] 1

variable [Facts₀]

def scatter_S32x128_S2000000x1_S2000000x128_1_0_0_1 : ScatterDims S32x128 S2000000x1 S2000000x128 where
  updateWindowDims := [1]
  insertedWindowDims := [0]
  scatterDimsToOperandDims := [0]
  indexVectorDim := 1
  wf := scatter_S32x128_S2000000x1_S2000000x128_1_0_0_1_wf
def scatter_S32_S2000000x1_S2000000_n_0_0_1 : ScatterDims S32 S2000000x1 S2000000 where
  updateWindowDims := []
  insertedWindowDims := [0]
  scatterDimsToOperandDims := [0]
  indexVectorDim := 1
  wf := scatter_S32_S2000000x1_S2000000_n_0_0_1_wf

class Facts : Prop extends Facts₀ where

variable [Facts]
-- ==== Proof.KernelFrame.lean ====
import proofs.«403117_j25735444038246_2_alg».proof.Proof.Gen.Kernel.Frame
import proofs.«403117_j25735444038246_2_alg».proof.Proof.Gen.Kernel.Skeleton
import Idealize.ShloMosaic.Lib.Pipeline.FrameBody
import Idealize.ShloMosaic.Lib.Pipeline.FrameSuffix
import Idealize.ShloMosaic.Lib.Tactic

/-!
# The frame of the word-level program

Every weakly fair execution of `@main` terminates, nothing faults, and the two argument arrays end as
they began.

The region's two input windows are clipped: the last block of each overhangs its array, so the tail of
the staging buffer holds words no array element names, and what the body leaves in the two outputs
depends on those words. A frame does not need any of it. So the proof data names NO window's
contents: every staging buffer is handed to the body at some contents and taken back at some contents.
What remains to show is only that the body's loads and stores are in bounds of whole buffers it
holds — which holds at every grid point, whichever way its one conditional goes — and that the host
operations after the region write neither argument.
-/

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body on any four whole staging buffers -/

/-- The condition of the body's one conditional, as the skeleton spells it from the grid coordinates:
    the second coordinate (the step within a core's share) is zero. -/
abbrev firstStep (i : grid0.Coords) : Prop :=
  Scalar.cmpi .ne (Scalar.extui (Scalar.cmpi .eq (BitVec.ofNat 32 (i 1).val) 0#32)) 0#32 = 1#1

set_option maxHeartbeats 1000000 in
/-- The body's triple with every buffer's contents forgotten: holding the four staging memrefs whole, each at
    SOME contents, the body runs to its end without fault and hands the four back, each again at some contents.
    Every access of the body is a load or a store of a whole buffer through the unit rectangle at the origin, so
    it is in bounds whatever the buffers hold; the one conditional (taken at the first step: two more whole
    stores of zeros) is decided either way and both ways the same four buffers come back. The contents the
    stores leave are terms over the payloads; nothing here reads them: each is the witness of its `∃`. -/
theorem body_run (c : Dev nD) (i : grid0.Coords)
    (arg2 : Memref sig .tc .vmem S16384x128 .f32) (harg2 : arg2.IsWhole)
    (arg3 : Memref sig .tc .vmem S16384 .i32) (harg3 : arg3.IsWhole)
    (arg4 : Memref sig .tc .vmem S1x32x128 .f32) (harg4 : arg4.IsWhole)
    (arg5 : Memref sig .tc .vmem S1x32x1 .f32) (harg5 : arg5.IsWhole)
    (E : Set ℕ) (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop((∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d)) -∗ K ⟨⟩))
      ⊢ wp frame (wpE (defs₀ (F := F)) Variants.none c none) E
          (cc0__segment_reduce_kernel i arg2 harg2 arg3 harg3 arg4 harg4 arg5 harg5) K := by
  simp only [cc0__segment_reduce_kernel_eq_skeleton]; unfold cc0__segment_reduce_kernel_skel
  simp only [k0_part1_eq_skeleton]; unfold k0_part1_skel
  unfold owns
  iintro ⟨⟨%d2, %f2, -, H2⟩, ⟨%d3, %f3, -, H3⟩, ⟨%d4, %f4, -, H4⟩, ⟨%d5, %f5, -, H5⟩, Hk⟩
  by_cases hc : firstStep i
  · -- the first step of a core's share: both outputs are zeroed first
    sl_exec (disch := first | exact hc)
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    iexists _, _; isplitr; swap; · iexact H5
    ipureintro; rfl
  · -- a later step: the outputs accumulate onto what they hold
    sl_exec (disch := first | exact hc)
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    iexists _, _; isplitr; swap; · iexact H5
    ipureintro; rfl

/-! ## The proof data: no window's contents named -/

variable (m : (ℓ : Loc nD τ sig) → Buf (Elt F) ℓ) (ρ : Dev nD → PrngReg)

/-- Every window is forgotten: the two clipped inputs because their buffers' tails hold unnamed words, the two
    outputs because what the body leaves there is computed from those words. -/
def forgets : Fin 4 → Bool := fun _ => true

/-- The proof data of the one pipeline on core `c`: the arrays as the region finds them; after the body every
    window's buffer at contents nothing names; the invariant the scoped rest and the generator register; nothing
    owed; full shares. -/
def dats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

/-- The proof data's arrays are the region-entry contents (the definition projected, the valuation never
    unfolded). -/
theorem A_eq (c : Dev nD) (w : Fin cfg0.W) : (dats m 0 c).A w = V m c (Pipeline.arrRef spec0 w) := by
  dsimp only [dats]

/-! ## The body obligation -/

/-- Each window's current staging memref at point `t`, at its printed type, and its wholeness. -/
abbrev ms0 (t : Fin cfg0.N) : Memref sig .tc .vmem S16384x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16384 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x32x1 .f32 := win0_3.stage (cfg0.slots t 3)
abbrev hs3 (t : Fin cfg0.N) : (ms3 t).IsWhole := hstage0_3 ((cfg0.slots t 3).cast nbuf0_3)

/-- The four current staging buffers at point `t`, each held whole at some contents: with every window forgotten,
    both what the body is called with and what it returns. -/
def held (c : Dev nD) (t : Fin cfg0.N) : sProp 𝕄 :=
  iprop((∃ X, owns (c : Thread nD τ) (ms0 t) fullShare X) ∗ (∃ X, owns (c : Thread nD τ) (ms1 t) fullShare X)
    ∗ (∃ X, owns (c : Thread nD τ) (ms2 t) fullShare X) ∗ (∃ X, owns (c : Thread nD τ) (ms3 t) fullShare X))

/-- The body at any grid point: the invariant and what the core owes are the same before and after every point
    (constant in the point) and pass through unread; the four buffers go through `body_run` at the point's
    coordinates, which needs no knowledge of which step it is. -/
theorem sound_body (c : Dev nD) (t : Fin cfg0.N) :
    iprop((dats m 0 c).Φ t.castSucc ∗ (dats m 0 c).owesAt () t.castSucc ∗ held (F := F) c t)
      ⊢ wp frame (wpE (defs₀ (F := F)) Variants.none c none) Set.univ (bodyAt0 t)
          (fun _ => iprop((dats m 0 c).Φ t.succ ∗ (dats m 0 c).owesAt () t.succ ∗ held (F := F) c t)) := by
  unfold held bodyAt0
  rw [show (dats m 0 c).Φ t.succ = (dats m 0 c).Φ t.castSucc from rfl,
    show (dats m 0 c).owesAt () t.succ = (dats m 0 c).owesAt () t.castSucc from rfl]
  iintro ⟨HΦ, Ho, H0, H1, H2, H3⟩
  iapply (body_run c (grid0.coords t) (ms0 t) (hs0 t) (ms1 t) (hs1 t) (ms2 t) (hs2 t) (ms3 t) (hs3 t) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation at every point, every window forgotten: the conjunction over the four windows
    written out is `held` on both sides. -/
theorem body_obligation (c : Dev nD) :
    BodyObligationLoose (dats (F := F) m 0 c) (defs₀ (F := F)) Variants.none () Set.univ forgets := fun t => by
  rw [bigSep_W0, bigSep_W0]
  exact sound_body m c t

/-! ## The host operations after the region -/

/-- Every unscoped reference but the two arguments: a set the later host operations write within, and of which
    the run's post therefore says nothing. -/
def tailT : Finset (Ref sig .tc) := Finset.univ.filter fun b => b ≠ main_arg0 ∧ b ≠ main_arg1

/-- No host operation after the region writes an argument: the two arguments are the arrays of windows 0 and 1,
    and those operations write no array of the pipeline (`sfx_keeps`). -/
theorem tail_writes : ∀ ops ∈ ([hostOps1, hostOps1_1, hostOps1_2, hostOps1_3, hostOps1_4, hostOps1_5, hostOps1_6] : List (List (HloOp τ sig (Elt F)))),
    ∀ op ∈ ops, ∀ b : Ref sig .tc, Proc.devRef .tc b ∈ op.writes → b ∈ tailT := by
  intro ops hops op hop b hb
  refine Finset.mem_filter.mpr ⟨Finset.mem_univ _, ?_, ?_⟩
  · rintro rfl; exact sfx_keeps ops hops op hop 0 hb
  · rintro rfl; exact sfx_keeps ops hops op hop 1 hb

/-! ## The run and the frame -/

-- the run theorem's implicit arguments are found by unifying its conclusion with this one, which takes
-- unfolding plain definitions in a metavariable's type
set_option backward.isDefEq.respectTransparency.types false in
/-- From any memory with zero counters every weakly fair execution of @main terminates, and every final state
    has each window's array related to its entry contents as the forgetful proof data says — for an INPUT window:
    equal to them — and every other unscoped buffer outside `tailT` at its region-entry contents. -/
theorem run_main : θ_run defs (onTc (τ := τ) (main (F := F))) (s₀ m ρ)
    (Pipeline.RDat.FramePostR (cfgs 0) (fun c => (dats m 0 c).toRForget forgets) tailT (fun c b => V0 m c (Proc.devRef .tc b))) :=
  Pipeline.RDat.θ_run_frame_around_T cfgs (0 : Fin 1) launch0 defs₀ Variants.none (fun c => (dats m 0 c).toRForget forgets) tailT m ρ main
    (hbody := fun c => (body_obligation m c).toRForget)
    (hshare := fun c => ((dats m 0 c).toRForget forgets).share_full fun _ => rfl)
    (howed := fun _ _ => rfl) (V₀ := V0 m)
    (opss := [hostOps1, hostOps1_1, hostOps1_2, hostOps1_3, hostOps1_4, hostOps1_5, hostOps1_6])
    (hsub := sfx_sub) (hfresh := sfx_fresh) (hkeep := sfx_keeps) (hT := tail_writes)
    (hmain := hmain m Variants.none) (hA := A_eq m) (hΦ := fun _ _ => rfl)

/-- THE FRAME: both arguments are arrays of INPUT windows (0 and 1), so the run's post reads each at its entry
    contents, which are the launch memory's (no host operation precedes the region). -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Pipeline.RDat.FramePostR.arr_in h c 0 rfl).trans ((A_eq m c 0).trans (V_main_arg0 m c)),
     (Pipeline.RDat.FramePostR.arr_in h c 1 rfl).trans ((A_eq m c 1).trans (V_main_arg1 m c))⟩) (run_main m ρ)

end Cert.Kernel.HandFrame

end
-- ==== Proof.KiRun.lean ====
/-
  The kernel body on any whole staging buffers, at any float instance: what it leaves in the two output buffers,
  as the body's own pure terms of what it loaded.

  The body has one branch, on the step coordinate. At a core's FIRST step it stores zero blocks into both outputs and
  then, like at every later step, loads the ids block, the features block and the running sums, stores
  "sums + one-hot · features" back, loads the running counts and stores "counts + row sums of the mask" back.
  Every access is of a whole buffer (offset zero, the buffer's own extents), so a load reads the buffer's contents and
  a store leaves its payload: the sums' buffer ends at `k0_pay5` of the loaded blocks and of what it held before
  (the zero block at a first step), the counts' at `k0_pay1 ∘ k0_pay6` likewise; the two inputs are only read.
-/
import proofs.«403117_j25735444038246_2_alg».proof.Proof.Gen.KernelIdeal.Frame
import proofs.«403117_j25735444038246_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.HandBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch: taken at a core's first step (the step coordinate is zero). -/
abbrev firstStep (i : grid0.Coords) : Prop :=
  Scalar.cmpi .ne (Scalar.extui (Scalar.cmpi .eq (BitVec.ofNat 32 (i 1).val) 0#32)) 0#32 = 1#1

theorem off1 : (![0] : Fin 1 → Nat) = fun _ => 0 := funext fun a => by fin_cases a; rfl
theorem off2 : (![0, 0] : Fin 2 → Nat) = fun _ => 0 := funext fun a => by fin_cases a <;> rfl
theorem off3 : (![0, 0, 0] : Fin 3 → Nat) = fun _ => 0 := funext fun a => by fin_cases a <;> rfl

section ReadBack

variable {sig' : RefSig} {κ : Kind} {sp : Space} {S : Shape} {e : EltTy}

/-- One store of a whole buffer: the buffer reads back as the payload, whatever it held. -/
theorem read_one_store (v : View sig' κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- A store of a whole buffer, LAST: the buffer reads back as its payload, whatever was stored before. -/
theorem read_last_store (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

end ReadBack

set_option maxHeartbeats 1000000 in
/-- A LATER step: the outputs' buffers hold the running sums `x4` and counts `x5`; they end at the body's two
    accumulating terms of the loaded blocks and of those. -/
theorem run_later (c : Dev nD) (i : grid0.Coords)
    (arg2 : Memref sig .tc .vmem S16384x128 .f32) (harg2 : arg2.IsWhole) (arg3 : Memref sig .tc .vmem S16384 .i32) (harg3 : arg3.IsWhole)
    (arg4 : Memref sig .tc .vmem S1x32x128 .f32) (harg4 : arg4.IsWhole) (arg5 : Memref sig .tc .vmem S1x32x1 .f32) (harg5 : arg5.IsWhole)
    (hc : ¬firstStep i)
    (x2 : Vec F S16384x128 .f32) (x3 : Vec F S16384 .i32) (x4 : Vec F S1x32x128 .f32) (x5 : Vec F S1x32x1 .f32) :
    ∀ (E : Set ℕ) (K : PUnit → sProp 𝕄),
      iprop(owns (c : Thread nD τ) arg2 fullShare x2 ∗ owns (c : Thread nD τ) arg3 fullShare x3
          ∗ owns (c : Thread nD τ) arg4 fullShare x4 ∗ owns (c : Thread nD τ) arg5 fullShare x5
          ∗ (iprop(owns (c : Thread nD τ) arg2 fullShare x2 ∗ owns (c : Thread nD τ) arg3 fullShare x3
              ∗ owns (c : Thread nD τ) arg4 fullShare (k0_pay5 i x3 x2 x4)
              ∗ owns (c : Thread nD τ) arg5 fullShare (k0_pay1 (k0_pay6 i x3 x5))) -∗ K ⟨⟩))
        ⊢ wp frame (wpE (defs₀ (F := F)) Variants.none c none) E
            (cc0__segment_reduce_kernel i arg2 harg2 arg3 harg3 arg4 harg4 arg5 harg5) K := by
  intro E K
  simp only [cc0__segment_reduce_kernel_eq_skeleton]; unfold cc0__segment_reduce_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_one_store _ _ off3]
    simp only [View.readAt_eq_ld, hf2, hf3, hf4, View.ld_unit_zero (S := S16384) off1, View.ld_unit_zero (S := S16384x128) off2,
      View.ld_unit_zero (S := S1x32x128) off3]
  · iexists _; isplitr; swap; · iexact H5
    ipureintro
    rw [read_one_store _ _ off3]
    simp only [View.readAt_eq_ld, hf3, hf5, View.ld_unit_zero (S := S16384) off1, View.ld_unit_zero (S := S1x32x1) off3]

set_option maxHeartbeats 1000000 in
/-- A FIRST step: the outputs' buffers hold anything; the body zeroes them and accumulates into the zero blocks. -/
theorem run_first (c : Dev nD) (i : grid0.Coords)
    (arg2 : Memref sig .tc .vmem S16384x128 .f32) (harg2 : arg2.IsWhole) (arg3 : Memref sig .tc .vmem S16384 .i32) (harg3 : arg3.IsWhole)
    (arg4 : Memref sig .tc .vmem S1x32x128 .f32) (harg4 : arg4.IsWhole) (arg5 : Memref sig .tc .vmem S1x32x1 .f32) (harg5 : arg5.IsWhole)
    (hc : firstStep i)
    (x2 : Vec F S16384x128 .f32) (x3 : Vec F S16384 .i32) (x4 : Vec F S1x32x128 .f32) (x5 : Vec F S1x32x1 .f32) :
    ∀ (E : Set ℕ) (K : PUnit → sProp 𝕄),
      iprop(owns (c : Thread nD τ) arg2 fullShare x2 ∗ owns (c : Thread nD τ) arg3 fullShare x3
          ∗ owns (c : Thread nD τ) arg4 fullShare x4 ∗ owns (c : Thread nD τ) arg5 fullShare x5
          ∗ (iprop(owns (c : Thread nD τ) arg2 fullShare x2 ∗ owns (c : Thread nD τ) arg3 fullShare x3
              ∗ owns (c : Thread nD τ) arg4 fullShare (k0_pay5 i x3 x2 (k0_pay2 (F := F)))
              ∗ owns (c : Thread nD τ) arg5 fullShare (k0_pay1 (k0_pay6 i x3 (k0_pay3 (F := F))))) -∗ K ⟨⟩))
        ⊢ wp frame (wpE (defs₀ (F := F)) Variants.none c none) E
            (cc0__segment_reduce_kernel i arg2 harg2 arg3 harg3 arg4 harg4 arg5 harg5) K := by
  intro E K
  simp only [cc0__segment_reduce_kernel_eq_skeleton]; unfold cc0__segment_reduce_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_last_store _ _ off3]
    sl_unfold_words
    simp only [View.readAt_eq_ld, hf2, hf3, View.ld_unit_zero (S := S16384) off1, View.ld_unit_zero (S := S16384x128) off2,
      View.readCov_unit_zero (S := S1x32x128) _ off3]
  · iexists _; isplitr; swap; · iexact H5
    ipureintro
    rw [read_last_store _ _ off3]
    sl_unfold_words
    simp only [View.readAt_eq_ld, hf3, View.ld_unit_zero (S := S16384) off1, View.readCov_unit_zero (S := S1x32x1) _ off3]

end Cert.KernelIdeal.HandBody

end
-- ==== Proof.PayValue.lean ====
import proofs.«403117_j25735444038246_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The slot a grid point works on: core times 62 plus step (the block number before clamping). -/
def slot (i : grid0.Coords) : Nat := (i 0).val * 62 + (i 1).val

/-! ## Words

The mask is made of two 32-bit comparisons. The row number is below 32 and the position
`slot * 16384 + r` is below `2 ^ 31`, so neither word wraps and each comparison is the one on numbers. -/

/-- A number below `2 ^ 31`, as a 32-bit word read signed, is itself. -/
theorem toInt_ofNat_of_lt (n : Nat) (hn : n < 2147483648) : (BitVec.ofNat 32 n).toInt = (n : Int) := by
  rw [BitVec.toInt_eq_toNat_cond, BitVec.toNat_ofNat, Nat.mod_eq_of_lt (by omega), if_pos (by omega)]

/-- The word of a row number below 32 equals a word exactly when that word, read signed, is the number. -/
theorem ofNat_eq_iff (h : Nat) (hh : h < 32) (w : BitVec 32) : BitVec.ofNat 32 h = w ↔ w.toInt = (h : Int) := by
  constructor
  · rintro rfl
    exact toInt_ofNat_of_lt h (by omega)
  · intro hw
    apply BitVec.eq_of_toNat_eq
    rw [BitVec.toNat_ofNat, Nat.mod_eq_of_lt (by omega)]
    rw [BitVec.toInt_eq_toNat_cond] at hw
    have := w.isLt
    split at hw <;> omega

/-- The position word: the products and sums of words are the word of the products and sums. -/
theorem pos_word (a b r : Nat) :
    IntOp.addi (Scalar.muli (Scalar.addi (Scalar.muli (BitVec.ofNat 32 a) 62#32) (BitVec.ofNat 32 b)) 16384#32) (BitVec.ofNat 32 r)
      = BitVec.ofNat 32 ((a * 62 + b) * 16384 + r) := by
  show (BitVec.ofNat 32 a * BitVec.ofNat 32 62 + BitVec.ofNat 32 b) * BitVec.ofNat 32 16384 + BitVec.ofNat 32 r = _
  rw [← BitVec.ofNat_mul, ← BitVec.ofNat_add, ← BitVec.ofNat_mul, ← BitVec.ofNat_add]

/-- A position below `2 ^ 31` compares signed with 2000000 as the numbers compare. -/
theorem slt_pos (n : Nat) (hn : n < 2147483648) : (BitVec.ofNat 32 n).slt 2000000#32 = decide (n < 2000000) := by
  rw [BitVec.slt_eq_decide, toInt_ofNat_of_lt n hn, toInt_ofNat_of_lt 2000000 (by omega)]
  exact decide_eq_decide.mpr (by omega)

/-- The 0/1 word of two conditions, widened to 32 bits, converted to a float at the exact instance: 1 when both hold, else 0. -/
theorem maskValue (p q : Bool) :
    (FloatOps.sitofp (F := Ideal) .f32 ((IntOp.andi (BitVec.ofBool p) (BitVec.ofBool q)).setWidth 32) : EReal)
      = if p = true ∧ q = true then 1 else 0 := by
  cases p <;> cases q <;> simp [IntOp.andi, FloatOps.sitofp]

/-! ## The mask read at an index -/

/-- The ids, viewed as one row and broadcast along the 32 rows, read at `(h, r)`: id `r`. -/
theorem ids_apply (ib : Vec Ideal S16384 .i32) (h : Fin 32) (r : Fin 16384) :
    broadcastTo S32x16384 (shapeCast S1x16384 (shapeCast S1x16384 ib shapeCasts_S16384_S1x16384) shapeCasts_S1x16384_S1x16384)
        broadcasts_S1x16384_S32x16384 (ix2 h r) = ib (ix1 r) := by
  refine (broadcastTo_1b_ab_apply _ _ h r).trans ?_
  rw [shapeCast_self]
  exact shapeCast_a_1a_apply ib _ (0 : Fin 1) r

/-- The mask at `(h, r)`: the bit "id `r` is `h`" and the bit "position `slot * 16384 + r` is inside the 2000000 rows". -/
theorem pay4_apply (i : grid0.Coords) (ib : Vec Ideal S16384 .i32) (h : Fin 32) (r : Fin 16384) :
    k0_pay4 (F := Ideal) i ib (ix2 h r)
      = IntOp.andi (BitVec.ofBool (decide ((ib (ix1 r)).toInt = (h.val : Int))))
          (BitVec.ofBool (decide (slot i * 16384 + r.val < 2000000))) := by
  have e0 : iota .tc S32x16384 32 [0] iota_S32x16384_d0_w32 (ix2 h r) = BitVec.ofNat 32 h.val :=
    iota_single_apply _ _ _ _ _ _
  have e1 : iota .tc S32x16384 32 [1] iota_S32x16384_d1_w32 (ix2 h r) = BitVec.ofNat 32 r.val :=
    iota_single_apply _ _ _ _ _ _
  have h0 : (i 0).val < 2 := (i 0).isLt
  have h1 : (i 1).val < 62 := (i 1).isLt
  have hr : r.val < 16384 := r.isLt
  show IntOp.andi
      (IntOp.cmpi .eq (iota .tc S32x16384 32 [0] iota_S32x16384_d0_w32 (ix2 h r))
        (broadcastTo S32x16384 (shapeCast S1x16384 (shapeCast S1x16384 ib shapeCasts_S16384_S1x16384) shapeCasts_S1x16384_S1x16384)
          broadcasts_S1x16384_S32x16384 (ix2 h r)))
      (IntOp.cmpi .slt
        (IntOp.addi (Scalar.muli (Scalar.addi (Scalar.muli (BitVec.ofNat 32 (i 0).val) 62#32) (BitVec.ofNat 32 (i 1).val)) 16384#32)
          (iota .tc S32x16384 32 [1] iota_S32x16384_d1_w32 (ix2 h r)))
        2000000#32) = _
  rw [e0, e1, ids_apply, pos_word]
  refine congrArg₂ IntOp.andi (congrArg BitVec.ofBool ?_) (congrArg BitVec.ofBool ?_)
  · rw [Bool.eq_iff_iff, beq_iff_eq, decide_eq_true_iff]
    exact ofNat_eq_iff h.val h.isLt _
  · exact slt_pos _ (by omega)

/-- The mask as the float the matmul and the lane sum read: 1 where both conditions hold, else 0. -/
theorem maskf_apply (i : grid0.Coords) (ib : Vec Ideal S16384 .i32) (hlt : 1 < 32) (h : Fin 32) (r : Fin 16384) :
    (sitofp .f32 (extui 32 (k0_pay4 (F := Ideal) i ib) hlt) : FVec Ideal S32x16384 .f32) (ix2 h r)
      = if (ib (ix1 r)).toInt = (h.val : Int) ∧ slot i * 16384 + r.val < 2000000 then (1 : EReal) else 0 := by
  show FloatOps.sitofp (F := Ideal) .f32 ((k0_pay4 (F := Ideal) i ib (ix2 h r)).setWidth 32) = _
  rw [pay4_apply, maskValue]
  simp only [decide_eq_true_eq]

/-! ## The contraction's index maps, axis by axis -/

theorem lhs_axis0 (j : S32x128.Idx) (k : dot_S32x16384_S16384x128_S32x128_1_0_0_1_n_n.contr.Idx) :
    ((dot_S32x16384_S16384x128_S32x128_1_0_0_1_n_n.lhsIdx j k) 0).val = (j 0).val := by
  unfold DotDims.lhsIdx
  rw [dif_neg (by decide), dif_pos (by decide)]
  rfl

theorem lhs_axis1 (j : S32x128.Idx) (k : dot_S32x16384_S16384x128_S32x128_1_0_0_1_n_n.contr.Idx) :
    ((dot_S32x16384_S16384x128_S32x128_1_0_0_1_n_n.lhsIdx j k) 1).val = (k ⟨0, by decide⟩).val :=
  dot_S32x16384_S16384x128_S32x128_1_0_0_1_n_n.lhsIdx_val_of_single (cl := 1) rfl j k

theorem rhs_axis0 (j : S32x128.Idx) (k : dot_S32x16384_S16384x128_S32x128_1_0_0_1_n_n.contr.Idx) :
    ((dot_S32x16384_S16384x128_S32x128_1_0_0_1_n_n.rhsIdx j k) 0).val = (k ⟨0, by decide⟩).val :=
  dot_S32x16384_S16384x128_S32x128_1_0_0_1_n_n.rhsIdx_val_of_single (cr := 0) rfl j k

theorem rhs_axis1 (j : S32x128.Idx) (k : dot_S32x16384_S16384x128_S32x128_1_0_0_1_n_n.contr.Idx) :
    ((dot_S32x16384_S16384x128_S32x128_1_0_0_1_n_n.rhsIdx j k) 1).val = (j 1).val := by
  unfold DotDims.rhsIdx
  rw [dif_neg (by decide), dif_pos (by decide)]
  rfl

/-- The contraction's one axis has 16384 coordinates. -/
abbrev contrE : dot_S32x16384_S16384x128_S32x128_1_0_0_1_n_n.contr.Idx ≃ Fin 16384 :=
  contrEquiv1 dot_S32x16384_S16384x128_S32x128_1_0_0_1_n_n 16384 rfl rfl

/-- At output `(h, d)` and contraction coordinate `r` the left operand is read at `(h, r)` … -/
theorem lhsIdx_eq (h : Fin 32) (d : Fin 128) (r : Fin 16384) :
    dot_S32x16384_S16384x128_S32x128_1_0_0_1_n_n.lhsIdx (ix2 h d) (contrE.symm r) = ix2 h r := by
  funext a
  match a with
  | ⟨0, _⟩ => exact Fin.ext (lhs_axis0 _ _)
  | ⟨1, _⟩ => exact Fin.ext ((lhs_axis1 _ _).trans (contrEquiv1_symm_val _ 16384 rfl rfl r))

/-- … and the right operand at `(r, d)`. -/
theorem rhsIdx_eq (h : Fin 32) (d : Fin 128) (r : Fin 16384) :
    dot_S32x16384_S16384x128_S32x128_1_0_0_1_n_n.rhsIdx (ix2 h d) (contrE.symm r) = ix2 r d := by
  funext a
  match a with
  | ⟨0, _⟩ => exact Fin.ext ((rhs_axis0 _ _).trans (contrEquiv1_symm_val _ 16384 rfl rfl r))
  | ⟨1, _⟩ => exact Fin.ext (rhs_axis1 _ _)

/-! ## A cast to one column, and the lane sum's source index -/

/-- An `[a]` array cast to `[a, 1]` reads, at `(i, u)`, the operand at `i`, whatever the unit coordinate `u`. -/
theorem shapeCast_a_a1_apply {α : Type} {a : ℕ} (x : (⟨1, ![a]⟩ : Shape).Idx → α)
    (hc : (⟨1, ![a]⟩ : Shape).ShapeCasts ⟨2, ![a, 1]⟩) (i : Fin a) (u : Fin 1) :
    shapeCast ⟨2, ![a, 1]⟩ x hc (ix2 i u) = x (ix1 i) :=
  shapeCast_apply x hc _ _ (by
    have hu : u.val = 0 := by omega
    rw [Shape.rowMajor_val_two, Shape.rowMajor_val_one]
    show i.val = i.val * 1 + u.val
    rw [hu, Nat.mul_one, Nat.add_zero])

/-- The lane sum's source index over row `h` with lane `r` inserted is `(h, r)`. -/
theorem lift_eq (h : Fin 32) (r : Fin 16384) :
    Shape.Reduces.lift (s := S32x16384) (t := S32) (a := 1) reduces_S32x16384_S32 (ix1 h) r = ix2 h r := by
  funext a
  match a with
  | ⟨0, _⟩ => rfl
  | ⟨1, _⟩ => rfl

/-! ## The payloads -/

theorem pay2_apply (j : S1x32x128.Idx) : k0_pay2 (F := Ideal) j = 0 := by
  unfold k0_pay2
  exact Ideal.ofBits_zero_f32

theorem pay3_apply (j : S1x32x1.Idx) : k0_pay3 (F := Ideal) j = 0 := by
  unfold k0_pay3
  exact Ideal.ofBits_zero_f32

theorem pay5_apply (i : grid0.Coords) (ib : Vec Ideal S16384 .i32) (fb : Vec Ideal S16384x128 .f32) (prev : Vec Ideal S1x32x128 .f32)
    (h : Fin 32) (d : Fin 128) :
    k0_pay5 (F := Ideal) i ib fb prev (ix3 (0 : Fin 1) h d)
      = prev (ix3 (0 : Fin 1) h d)
        + ∑ r : Fin 16384, (if (ib (ix1 r)).toInt = (h.val : Int) ∧ slot i * 16384 + r.val < 2000000 then (1 : EReal) else 0) * fb (ix2 r d) := by
  unfold k0_pay5
  refine (shapeCast_ab_1ab_apply _ _ (0 : Fin 1) h d).trans ?_
  refine (addf_apply _ _ _).trans ?_
  refine congrArg₂ (· + ·) (shapeCast_1ab_ab_apply prev _ h d) ?_
  refine (Ideal.matmul_constant_zero_apply _ none _ _ _).trans ?_
  refine (Equiv.sum_comp contrE.symm _).symm.trans ?_
  refine Finset.sum_congr rfl fun r _ => ?_
  simp only [lhsIdx_eq, rhsIdx_eq]
  exact congrArg₂ (· * ·) (maskf_apply i ib _ h r) rfl

theorem pay6_apply (i : grid0.Coords) (ib : Vec Ideal S16384 .i32) (prev : Vec Ideal S1x32x1 .f32) (h : Fin 32) :
    k0_pay1 (F := Ideal) (k0_pay6 (F := Ideal) i ib prev) (ix3 (0 : Fin 1) h (0 : Fin 1))
      = prev (ix3 (0 : Fin 1) h (0 : Fin 1))
        + ∑ r : Fin 16384, (if (ib (ix1 r)).toInt = (h.val : Int) ∧ slot i * 16384 + r.val < 2000000 then (1 : EReal) else 0) := by
  unfold k0_pay1 k0_pay6
  refine (shapeCast_ab_1ab_apply _ _ (0 : Fin 1) h (0 : Fin 1)).trans ?_
  refine (addf_apply _ _ _).trans ?_
  refine congrArg₂ (· + ·) (shapeCast_1ab_ab_apply prev _ h (0 : Fin 1)) ?_
  refine (shapeCast_a_a1_apply _ _ h (0 : Fin 1)).trans ?_
  refine (Ideal.multiReduction_add_single (s := S32x16384) (t := S32) (a := 1) _ _ reduces_S32x16384_S32 _ _ (ix1 h)).trans ?_
  refine Finset.sum_congr rfl fun r _ => ?_
  exact (congrArg _ (lift_eq h r)).trans (maskf_apply i ib _ h r)

end Cert.KernelIdeal.PayValue

end
-- ==== Proof.SegSpec.lean ====
/-
  Per-group sums of rows, as plain finite sums over the extended reals.

  A table of 2,000,000 rows of 128 columns and a word per row (the row's group id, read as a signed
  integer). `partSum x ids lo hi h d` adds column `d` over the rows of group `h` whose row number lies in
  `[lo, hi)`; `partCount` counts them. A row whose id is no group number (negative, or 32 and above) is in
  no group. The laws: a range splits at any point in between; a range reaching past the table's end may be
  cut there; and ONE BLOCK of 16,384 rows, weighted row by row with the 0/1 indicator "this row is in the
  table and in group h", sums to the block's range — whatever stands in the block's rows past the table's
  end, since those are weighted by zero and zero times any extended real is zero.
-/
import Mathlib.Data.EReal.Basic
import Mathlib.Algebra.BigOperators.Fin
import Mathlib.Algebra.BigOperators.Ring.Finset

noncomputable section

open scoped BigOperators

namespace Cert.SegSpec

/-- Column `d` summed over the rows of group `h` with row number in `[lo, hi)`. -/
def partSum (x : Fin 2000000 → Fin 128 → EReal) (ids : Fin 2000000 → BitVec 32) (lo hi : Nat) (h : Fin 32) (d : Fin 128) : EReal :=
  ∑ i : Fin 2000000, if lo ≤ i.val ∧ i.val < hi ∧ (ids i).toInt = (h.val : Int) then x i d else 0

/-- The number of rows of group `h` with row number in `[lo, hi)`, as an extended real. -/
def partCount (ids : Fin 2000000 → BitVec 32) (lo hi : Nat) (h : Fin 32) : EReal :=
  ∑ i : Fin 2000000, if lo ≤ i.val ∧ i.val < hi ∧ (ids i).toInt = (h.val : Int) then (1 : EReal) else 0

/-- The three-part test of one row splits with the range: below `mid` only the left part can hold, from `mid`
    on only the right part. -/
private theorem ite_range_split {P : Prop} [Decidable P] {lo mid hi n : Nat} (h1 : lo ≤ mid) (h2 : mid ≤ hi) (a : EReal) :
    (if lo ≤ n ∧ n < mid ∧ P then a else 0) + (if mid ≤ n ∧ n < hi ∧ P then a else 0)
      = if lo ≤ n ∧ n < hi ∧ P then a else 0 := by
  by_cases hm : n < mid
  · have e2 : ¬ (mid ≤ n ∧ n < hi ∧ P) := by
      rintro ⟨p, _, _⟩
      omega
    rw [if_neg e2, add_zero]
    refine if_congr ?_ rfl rfl
    constructor
    · rintro ⟨p, _, c⟩
      exact ⟨p, by omega, c⟩
    · rintro ⟨p, _, c⟩
      exact ⟨p, hm, c⟩
  · have e1 : ¬ (lo ≤ n ∧ n < mid ∧ P) := by
      rintro ⟨_, q, _⟩
      exact hm q
    rw [if_neg e1, zero_add]
    refine if_congr ?_ rfl rfl
    constructor
    · rintro ⟨_, q, c⟩
      exact ⟨by omega, q, c⟩
    · rintro ⟨_, q, c⟩
      exact ⟨by omega, q, c⟩

/-- For a row number of the table, any two upper ends at or past the table's end test alike. -/
private theorem ite_range_past {P : Prop} [Decidable P] {lo hi hi' n : Nat} (hn : n < 2000000)
    (h1 : 2000000 ≤ hi) (h2 : 2000000 ≤ hi') (a : EReal) :
    (if lo ≤ n ∧ n < hi ∧ P then a else 0) = if lo ≤ n ∧ n < hi' ∧ P then a else 0 := by
  refine if_congr ?_ rfl rfl
  constructor
  · rintro ⟨p, _, c⟩
    exact ⟨p, by omega, c⟩
  · rintro ⟨p, _, c⟩
    exact ⟨p, by omega, c⟩

/-- An empty range sums to zero. -/
theorem partSum_empty (x : Fin 2000000 → Fin 128 → EReal) (ids : Fin 2000000 → BitVec 32) (lo : Nat) (h : Fin 32) (d : Fin 128) :
    partSum x ids lo lo h d = 0 := by
  unfold partSum
  refine Finset.sum_eq_zero (fun i _ => if_neg ?_)
  rintro ⟨p, q, _⟩
  omega

theorem partCount_empty (ids : Fin 2000000 → BitVec 32) (lo : Nat) (h : Fin 32) : partCount ids lo lo h = 0 := by
  unfold partCount
  refine Finset.sum_eq_zero (fun i _ => if_neg ?_)
  rintro ⟨p, q, _⟩
  omega

/-- A range splits at a point in between. -/
theorem partSum_split (x : Fin 2000000 → Fin 128 → EReal) (ids : Fin 2000000 → BitVec 32) {lo mid hi : Nat} (h1 : lo ≤ mid) (h2 : mid ≤ hi)
    (h : Fin 32) (d : Fin 128) : partSum x ids lo mid h d + partSum x ids mid hi h d = partSum x ids lo hi h d := by
  unfold partSum
  rw [← Finset.sum_add_distrib]
  exact Finset.sum_congr rfl (fun i _ => ite_range_split h1 h2 _)

theorem partCount_split (ids : Fin 2000000 → BitVec 32) {lo mid hi : Nat} (h1 : lo ≤ mid) (h2 : mid ≤ hi) (h : Fin 32) :
    partCount ids lo mid h + partCount ids mid hi h = partCount ids lo hi h := by
  unfold partCount
  rw [← Finset.sum_add_distrib]
  exact Finset.sum_congr rfl (fun i _ => ite_range_split h1 h2 _)

/-- Past the table's end there are no rows: two upper ends at or beyond it give one sum. -/
theorem partSum_past_end (x : Fin 2000000 → Fin 128 → EReal) (ids : Fin 2000000 → BitVec 32) (lo : Nat) {hi hi' : Nat}
    (h1 : 2000000 ≤ hi) (h2 : 2000000 ≤ hi') (h : Fin 32) (d : Fin 128) : partSum x ids lo hi h d = partSum x ids lo hi' h d := by
  unfold partSum
  exact Finset.sum_congr rfl (fun i _ => ite_range_past i.isLt h1 h2 _)

theorem partCount_past_end (ids : Fin 2000000 → BitVec 32) (lo : Nat) {hi hi' : Nat} (h1 : 2000000 ≤ hi) (h2 : 2000000 ≤ hi') (h : Fin 32) :
    partCount ids lo hi h = partCount ids lo hi' h := by
  unfold partCount
  exact Finset.sum_congr rfl (fun i _ => ite_range_past i.isLt h1 h2 _)

/-- ONE BLOCK. The slot numbered `v` (at most 123) works on a buffer of 16,384 rows. When `v ≤ 122` the buffer was
    handed block `v` of the table: `fb` and `ib` agree with the table wherever the buffer's row is a row of the table
    (`hb`), and hold anything elsewhere; when `v = 123` nothing is known of the buffer. Weighted by the indicator of "id is `h`, and row `v * 16384 + r` is in the table",
    the buffer's column `d` sums to the group's sum over the slot's range of row numbers. (For `v = 123` the
    indicator is zero on every row and the range holds no row of the table.) -/
theorem block_sum (x : Fin 2000000 → Fin 128 → EReal) (ids : Fin 2000000 → BitVec 32) (v : Nat) (hv : v ≤ 123)
    (fb : Fin 16384 → Fin 128 → EReal) (ib : Fin 16384 → BitVec 32)
    (hb : v ≤ 122 → ∀ (r : Fin 16384) (i : Fin 2000000), i.val = v * 16384 + r.val → fb r = x i ∧ ib r = ids i)
    (h : Fin 32) (d : Fin 128) :
    (∑ r : Fin 16384, (if (ib r).toInt = (h.val : Int) ∧ v * 16384 + r.val < 2000000 then (1 : EReal) else 0) * fb r d)
      = partSum x ids (v * 16384) ((v + 1) * 16384) h d := by
  unfold partSum
  -- a weight of one keeps the buffer's entry, a weight of zero kills it, whatever it is
  have hL : ∀ r : Fin 16384,
      (if (ib r).toInt = (h.val : Int) ∧ v * 16384 + r.val < 2000000 then (1 : EReal) else 0) * fb r d
        = if (ib r).toInt = (h.val : Int) ∧ v * 16384 + r.val < 2000000 then fb r d else 0 := by
    intro r
    split_ifs
    · exact one_mul _
    · exact zero_mul _
  rw [Finset.sum_congr rfl (fun r _ => hL r), ← Finset.sum_filter, ← Finset.sum_filter]
  -- a buffer row whose shifted number is a row of the table lies in a block the table holds whole or in part:
  -- then `v ≤ 122`, and the buffer agrees with the table there
  have agree : ∀ (r : Fin 16384) (hlt : v * 16384 + r.val < 2000000),
      fb r = x ⟨v * 16384 + r.val, hlt⟩ ∧ ib r = ids ⟨v * 16384 + r.val, hlt⟩ := by
    intro r hlt
    exact hb (by omega) r ⟨v * 16384 + r.val, hlt⟩ rfl
  -- the rows of the buffer that count correspond one to one, by `r ↦ v * 16384 + r`, to the rows of the range
  refine Finset.sum_bij
    (fun r hr => (⟨v * 16384 + r.val, (Finset.mem_filter.mp hr).2.2⟩ : Fin 2000000)) ?_ ?_ ?_ ?_
  · intro r hr
    have hr' := (Finset.mem_filter.mp hr).2
    have hr16 := r.isLt
    refine Finset.mem_filter.mpr ⟨Finset.mem_univ _, ?_, ?_, ?_⟩
    · show v * 16384 ≤ v * 16384 + r.val
      omega
    · show v * 16384 + r.val < (v + 1) * 16384
      omega
    · rw [← (agree r hr'.2).2]
      exact hr'.1
  · intro r₁ hr₁ r₂ hr₂ e
    have e' : v * 16384 + r₁.val = v * 16384 + r₂.val := congrArg Fin.val e
    exact Fin.ext (by omega)
  · intro i hi
    have hi' := (Finset.mem_filter.mp hi).2
    have hi2 := i.isLt
    have hlt : v * 16384 + (i.val - v * 16384) < 2000000 := by omega
    have hr16 : i.val - v * 16384 < 16384 := by omega
    have hii : (⟨v * 16384 + (i.val - v * 16384), hlt⟩ : Fin 2000000) = i :=
      Fin.ext (by show v * 16384 + (i.val - v * 16384) = i.val; omega)
    have ag := agree ⟨i.val - v * 16384, hr16⟩ hlt
    rw [hii] at ag
    refine ⟨⟨i.val - v * 16384, hr16⟩, Finset.mem_filter.mpr ⟨Finset.mem_univ _, ?_, hlt⟩, hii⟩
    rw [ag.2]
    exact hi'.2.2
  · intro r hr
    have hr' := (Finset.mem_filter.mp hr).2
    rw [(agree r hr'.2).1]

/-- The same block, counted. -/
theorem block_count (ids : Fin 2000000 → BitVec 32) (v : Nat) (hv : v ≤ 123) (ib : Fin 16384 → BitVec 32)
    (hb : v ≤ 122 → ∀ (r : Fin 16384) (i : Fin 2000000), i.val = v * 16384 + r.val → ib r = ids i) (h : Fin 32) :
    (∑ r : Fin 16384, (if (ib r).toInt = (h.val : Int) ∧ v * 16384 + r.val < 2000000 then (1 : EReal) else 0))
      = partCount ids (v * 16384) ((v + 1) * 16384) h := by
  -- counting is summing a table of ones
  have key := block_sum (fun _ _ => (1 : EReal)) ids v hv (fun _ _ => (1 : EReal)) ib
    (fun hv' r i hi => ⟨rfl, hb hv' r i hi⟩) h ⟨0, by omega⟩
  unfold partSum at key
  unfold partCount
  simp only [mul_one] at key
  exact key

end Cert.SegSpec

end
-- ==== Proof.KiData.lean ====
/-
  The proof data of the idealized kernel's pipeline, at the exact instance.

  The grid's 124 points are numbered slot by slot: point `t` is core `t / 62`, step `t % 62`, and works on slot `t`
  (rows `t * 16384 …` of the table; slot 123 is past the table's end and its block index is clamped to 122). The two
  inputs' buffers hold, whenever the body runs, the block fetched for the point — the table's rows where the block is
  inside the table, anything past its end (the last block overhangs by 15232 rows). The two outputs' buffers hold,
  after the body at point `t`, every group's column sums and row counts over the rows the point's core has seen so far:
  row numbers from the core's first row up to the end of slot `t`.
-/
import proofs.«403117_j25735444038246_2_alg».proof.Proof.KiRun
import proofs.«403117_j25735444038246_2_alg».proof.Proof.PayValue
import proofs.«403117_j25735444038246_2_alg».proof.Proof.SegSpec
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.HandBody Cert.KernelIdeal.PayValue Cert.SegSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The schedule, decided over the grid's 124 points -/

theorem first_iff : ∀ t : Fin cfg0.N, firstStep (grid0.coords t) ↔ t.val % 62 = 0 :=
  (by decide +kernel : ∀ t : Fin grid0.N, firstStep (grid0.coords t) ↔ t.val % 62 = 0)
theorem slot_eq : ∀ t : Fin cfg0.N, slot (grid0.coords t) = t.val :=
  (by decide +kernel : ∀ t : Fin grid0.N, slot (grid0.coords t) = t.val)
theorem index0 : ∀ t : Fin cfg0.N, win0_0.index t 0 = min t.val 122 ∧ win0_0.index t 1 = 0 :=
  (by decide +kernel : ∀ t : Fin grid0.N, win0_0.index t 0 = min t.val 122 ∧ win0_0.index t 1 = 0)
theorem index1 : ∀ t : Fin cfg0.N, win0_1.index t 0 = min t.val 122 :=
  (by decide +kernel : ∀ t : Fin grid0.N, win0_1.index t 0 = min t.val 122)
theorem xsize0 : ∀ t : Fin cfg0.N, win0_0.xsize (grid0.coords t) 0 = (if t.val < 122 then 16384 else 1152) ∧ win0_0.xsize (grid0.coords t) 1 = 128 :=
  (by decide +kernel : ∀ t : Fin grid0.N, win0_0.xsize (grid0.coords t) 0 = (if t.val < 122 then 16384 else 1152) ∧ win0_0.xsize (grid0.coords t) 1 = 128)
theorem xsize1 : ∀ t : Fin cfg0.N, win0_1.xsize (grid0.coords t) 0 = (if t.val < 122 then 16384 else 1152) :=
  (by decide +kernel : ∀ t : Fin grid0.N, win0_1.xsize (grid0.coords t) 0 = (if t.val < 122 then 16384 else 1152))
theorem index2 : ∀ t : Fin cfg0.N, win0_2.index t 0 = t.val / 62 ∧ win0_2.index t 1 = 0 ∧ win0_2.index t 2 = 0 :=
  (by decide +kernel : ∀ t : Fin grid0.N, win0_2.index t 0 = t.val / 62 ∧ win0_2.index t 1 = 0 ∧ win0_2.index t 2 = 0)
theorem index3 : ∀ t : Fin cfg0.N, win0_3.index t 0 = t.val / 62 ∧ win0_3.index t 1 = 0 ∧ win0_3.index t 2 = 0 :=
  (by decide +kernel : ∀ t : Fin grid0.N, win0_3.index t 0 = t.val / 62 ∧ win0_3.index t 1 = 0 ∧ win0_3.index t 2 = 0)

/-! ## The table, and the running sums -/

/-- The features array as the region finds it, by row number and column. -/
def tab (c : Dev nD) : Fin 2000000 → Fin 128 → EReal := fun i d => (V m c main_arg0 : S2000000x128.Idx → EReal) (ix2 i d)
/-- The ids array as the region finds it, by row number. -/
def idw (c : Dev nD) : Fin 2000000 → BitVec 32 := fun i => (V m c main_arg1 : S2000000.Idx → BitVec 32) (ix1 i)

/-- The first row number of the core that point `t` belongs to: 62 slots of 16384 rows per core. -/
def coreLo (t : Fin cfg0.N) : Nat := t.val / 62 * 1015808

/-- The sums' block after point `t`: every group's column sums over the rows its core has seen so far. -/
def sumsAt (c : Dev nD) (t : Fin cfg0.N) : S1x32x128.Idx → EReal :=
  fun j => partSum (tab m c) (idw m c) (coreLo t) ((t.val + 1) * 16384) (j 1) (j 2)
/-- The counts' block after point `t`. -/
def countsAt (c : Dev nD) (t : Fin cfg0.N) : S1x32x1.Idx → EReal :=
  fun j => partCount (idw m c) (coreLo t) ((t.val + 1) * 16384) (j 1)

/-- The proof data of the pipeline on core `c`: the arrays as the region finds them; after the body the two inputs'
    buffers at their blocks (zero past the array's end), the outputs' at the running sums and counts. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0#32 : BitVec 32)) (iblk m c 1 t)
    | ⟨2, _⟩ => sumsAt m c t
    | ⟨3, _⟩ => countsAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) :
    (dats m 0 c).after 0 t = win0_0.fill (grid0.coords t) (fun _ => (0 : EReal)) (iblk m c 0 t) := by dsimp only [dats]
theorem after1 (c : Dev nD) (t : Fin cfg0.N) :
    (dats m 0 c).after 1 t = win0_1.fill (grid0.coords t) (fun _ => (0#32 : BitVec 32)) (iblk m c 1 t) := by dsimp only [dats]
theorem after2 (c : Dev nD) (t : Fin cfg0.N) : (dats m 0 c).after 2 t = sumsAt m c t := by dsimp only [dats]
theorem after3 (c : Dev nD) (t : Fin cfg0.N) : (dats m 0 c).after 3 t = countsAt m c t := by dsimp only [dats]

/-! ## What the buffers hold when the body runs -/

/-- The cuts of the two clipped input windows are a function of their block index. -/
theorem clip_of_index0 (t t' : Fin cfg0.N) (h : (cfg0.win 0).index t = (cfg0.win 0).index t') :
    (cfg0.win 0).clip (cfg0.grid.coords t) = (cfg0.win 0).clip (cfg0.grid.coords t') := by
  funext a
  show Pipeline.Clip.of (cc0_transform_0 (grid0.coords t) a) _ _ = Pipeline.Clip.of (cc0_transform_0 (grid0.coords t') a) _ _
  rw [show cc0_transform_0 (grid0.coords t) = cc0_transform_0 (grid0.coords t') from h]
theorem clip_of_index1 (t t' : Fin cfg0.N) (h : (cfg0.win 1).index t = (cfg0.win 1).index t') :
    (cfg0.win 1).clip (cfg0.grid.coords t) = (cfg0.win 1).clip (cfg0.grid.coords t') := by
  funext a
  show Pipeline.Clip.of (cc0_transform_1 (grid0.coords t) a) _ _ = Pipeline.Clip.of (cc0_transform_1 (grid0.coords t') a) _ _
  rw [show cc0_transform_1 (grid0.coords t) = cc0_transform_1 (grid0.coords t') from h]

/-- The features' buffer holds its block, fetched at this point or not, and anything past the array's end. -/
theorem before0 (c : Dev nD) (t : Fin cfg0.N) (d) :
    (dats m 0 c).before 0 t d = win0_0.fill (grid0.coords t) d (iblk m c 0 t) :=
  ((dats m 0 c).before_in_eq_fetched 0 rfl (fun _ => rfl) clip_of_index0
    (fun t => by rw [after0]; exact (win0_0.cut_fill _ _ _).trans (by unfold Dat.blockOf iblk; rw [A_eq])) t d).trans
    (by unfold Dat.fetched Dat.blockOf iblk; rw [A_eq])
/-- The ids' buffer likewise. -/
theorem before1 (c : Dev nD) (t : Fin cfg0.N) (d) :
    (dats m 0 c).before 1 t d = win0_1.fill (grid0.coords t) d (iblk m c 1 t) :=
  ((dats m 0 c).before_in_eq_fetched 1 rfl (fun _ => rfl) clip_of_index1
    (fun t => by rw [after1]; exact (win0_1.cut_fill _ _ _).trans (by unfold Dat.blockOf iblk; rw [A_eq])) t d).trans
    (by unfold Dat.fetched Dat.blockOf iblk; rw [A_eq])

/-- At a core's first step an output's buffer holds anything. -/
theorem before2_first (c : Dev nD) (t : Fin cfg0.N) (h : t.val % 62 = 0) (d) : (dats m 0 c).before 2 t d = d :=
  Dat.before_out_reset _ 2 rfl t (by
    by_cases h0 : t.val = 0
    · exact .inl h0
    · exact .inr ⟨h0, (flush0_2 _).mpr (by dsimp only; omega)⟩) d
theorem before3_first (c : Dev nD) (t : Fin cfg0.N) (h : t.val % 62 = 0) (d) : (dats m 0 c).before 3 t d = d :=
  Dat.before_out_reset _ 3 rfl t (by
    by_cases h0 : t.val = 0
    · exact .inl h0
    · exact .inr ⟨h0, (flush0_3 _).mpr (by dsimp only; omega)⟩) d
/-- At a later step it holds what the step before left: the running sums / counts. -/
theorem before2_later (c : Dev nD) (t : Fin cfg0.N) (h : ¬t.val % 62 = 0) (d) :
    (dats m 0 c).before 2 t d = sumsAt m c ⟨t.val - 1, Nat.lt_of_le_of_lt (Nat.sub_le _ _) t.isLt⟩ := by
  rw [Dat.before_out_kept _ 2 rfl t (by omega) (Bool.eq_false_iff.mpr fun hf => by have := (flush0_2 _).mp hf; dsimp only at this; omega)
    (fun _ => rfl) (fun _ _ => rfl)]
  dsimp only [dats]
theorem before3_later (c : Dev nD) (t : Fin cfg0.N) (h : ¬t.val % 62 = 0) (d) :
    (dats m 0 c).before 3 t d = countsAt m c ⟨t.val - 1, Nat.lt_of_le_of_lt (Nat.sub_le _ _) t.isLt⟩ := by
  rw [Dat.before_out_kept _ 3 rfl t (by omega) (Bool.eq_false_iff.mpr fun hf => by have := (flush0_3 _).mp hf; dsimp only at this; omega)
    (fun _ => rfl) (fun _ _ => rfl)]
  dsimp only [dats]

/-! ## A fetched block's rows are the table's rows -/

/-- Row `r` of the features' buffer at a point `t ≤ 122` is row `t * 16384 + r` of the table, where that is a row of it. -/
theorem feat_row (c : Dev nD) (t : Fin cfg0.N) (ht : t.val ≤ 122) (d : win0_0.block.Idx → EReal) (r : Fin 16384) (i : Fin 2000000)
    (hi : i.val = t.val * 16384 + r.val) (dd : Fin 128) :
    win0_0.fill (grid0.coords t) d (iblk m c 0 t) (ix2 r dd) = tab m c i dd := by
  have hm : win0_0.moved (grid0.coords t) (ix2 r dd) = true := (win0_0.moved_iff _ _).mpr fun a => by
    match a with
    | ⟨0, _⟩ =>
      show r.val < win0_0.xsize (grid0.coords t) 0
      rw [(xsize0 t).1]; have := i.isLt; split <;> omega
    | ⟨1, _⟩ =>
      show dd.val < win0_0.xsize (grid0.coords t) 1
      rw [(xsize0 t).2]; exact dd.isLt
  unfold Window.fill; rw [dif_pos hm]
  unfold iblk tab
  rw [View.read_apply]
  refine (cast_eq _ _).trans (congrArg (V m c main_arg0 : S2000000x128.Idx → EReal) (funext fun a => Fin.ext ?_))
  match a with
  | ⟨0, _⟩ =>
    show win0_0.index t 0 * 16384 + 1 * r.val = i.val
    rw [(index0 t).1, min_eq_left ht]; omega
  | ⟨1, _⟩ =>
    show win0_0.index t 1 * 128 + 1 * dd.val = dd.val
    rw [(index0 t).2]; omega

/-- Row `r` of the ids' buffer likewise. -/
theorem ids_row (c : Dev nD) (t : Fin cfg0.N) (ht : t.val ≤ 122) (d : win0_1.block.Idx → BitVec 32) (r : Fin 16384) (i : Fin 2000000)
    (hi : i.val = t.val * 16384 + r.val) :
    win0_1.fill (grid0.coords t) d (iblk m c 1 t) (ix1 r) = idw m c i := by
  have hm : win0_1.moved (grid0.coords t) (ix1 r) = true := (win0_1.moved_iff _ _).mpr fun a => by
    match a with
    | ⟨0, _⟩ =>
      show r.val < win0_1.xsize (grid0.coords t) 0
      rw [xsize1 t]; have := i.isLt; split <;> omega
  unfold Window.fill; rw [dif_pos hm]
  unfold iblk idw
  rw [View.read_apply]
  refine (cast_eq _ _).trans (congrArg (V m c main_arg1 : S2000000.Idx → BitVec 32) (funext fun a => Fin.ext ?_))
  match a with
  | ⟨0, _⟩ =>
    show win0_1.index t 0 * 16384 + 1 * r.val = i.val
    rw [index1 t, min_eq_left ht]; omega

end Cert.KernelIdeal.HandValue

end
-- ==== Proof.KiBody.lean ====
/-
  One step of the accumulation, and the body's obligation to the pipeline.

  At point `t` the body adds to the running sums the one-hot product of the point's blocks: entry (h, d) gains the sum
  over the block's rows r of [id r = h and row t * 16384 + r is in the table] · features r d. The rows past the table's
  end carry the indicator 0, and 0 · anything = 0 on the extended reals, so the gain is the group's column sum over the
  slot's range of row numbers whatever the buffer's tail holds; added to the sum over the core's earlier slots it is the
  sum up to the end of slot `t`. At a core's first step the running sums are the zero block. The counts likewise.
-/
import proofs.«403117_j25735444038246_2_alg».proof.Proof.KiData
import proofs.«403117_j25735444038246_2_alg».proof.Proof.KiRun
import proofs.«403117_j25735444038246_2_alg».proof.Proof.PayValue
import proofs.«403117_j25735444038246_2_alg».proof.Proof.SegSpec
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.HandBody Cert.KernelIdeal.PayValue Cert.SegSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## One block's gain -/

theorem N124 (t : Fin cfg0.N) : t.val < 124 := lt_of_lt_of_eq t.isLt N_0

/-- The gain of the sums at point `t`, whatever the buffers' tails hold. -/
theorem gain_sum (c : Dev nD) (t : Fin cfg0.N) (d0 : win0_0.block.Idx → EReal) (d1 : win0_1.block.Idx → BitVec 32) (h : Fin 32) (d : Fin 128) :
    (∑ r : Fin 16384, (if (win0_1.fill (grid0.coords t) d1 (iblk m c 1 t) (ix1 r)).toInt = (h.val : Int)
          ∧ slot (grid0.coords t) * 16384 + r.val < 2000000 then (1 : EReal) else 0)
        * win0_0.fill (grid0.coords t) d0 (iblk m c 0 t) (ix2 r d))
      = partSum (tab m c) (idw m c) (t.val * 16384) ((t.val + 1) * 16384) h d := by
  rw [slot_eq]
  have hN := N124 t
  exact block_sum (tab m c) (idw m c) t.val (by omega)
    (fun r dd => win0_0.fill (grid0.coords t) d0 (iblk m c 0 t) (ix2 r dd))
    (fun r => win0_1.fill (grid0.coords t) d1 (iblk m c 1 t) (ix1 r))
    (fun ht r i hi => ⟨funext fun dd => feat_row m c t ht d0 r i hi dd, ids_row m c t ht d1 r i hi⟩) h d

/-- The gain of the counts at point `t`. -/
theorem gain_count (c : Dev nD) (t : Fin cfg0.N) (d1 : win0_1.block.Idx → BitVec 32) (h : Fin 32) :
    (∑ r : Fin 16384, (if (win0_1.fill (grid0.coords t) d1 (iblk m c 1 t) (ix1 r)).toInt = (h.val : Int)
          ∧ slot (grid0.coords t) * 16384 + r.val < 2000000 then (1 : EReal) else 0))
      = partCount (idw m c) (t.val * 16384) ((t.val + 1) * 16384) h := by
  rw [slot_eq]
  have hN := N124 t
  exact block_count (idw m c) t.val (by omega)
    (fun r => win0_1.fill (grid0.coords t) d1 (iblk m c 1 t) (ix1 r))
    (fun ht r i hi => ids_row m c t ht d1 r i hi) h

/-! ## The step -/

theorem sums_first (c : Dev nD) (t : Fin cfg0.N) (h0 : t.val % 62 = 0) (d0 : win0_0.block.Idx → EReal) (d1 : win0_1.block.Idx → BitVec 32) :
    k0_pay5 (F := Ideal) (grid0.coords t) (win0_1.fill (grid0.coords t) d1 (iblk m c 1 t))
      (win0_0.fill (grid0.coords t) d0 (iblk m c 0 t)) (k0_pay2 (F := Ideal)) = sumsAt m c t := by
  funext j
  obtain ⟨z, h, d, rfl⟩ : ∃ (z : Fin 1) (h : Fin 32) (d : Fin 128), j = ix3 z h d := ⟨j 0, j 1, j 2, eq_ix3 j⟩
  obtain rfl : z = 0 := Subsingleton.elim _ _
  rw [pay5_apply, pay2_apply, zero_add, gain_sum m c t d0 d1 h d]
  show partSum _ _ (t.val * 16384) _ h d = partSum _ _ (coreLo t) _ h d
  have e : coreLo t = t.val * 16384 := by unfold coreLo; omega
  rw [e]

theorem sums_later (c : Dev nD) (t : Fin cfg0.N) (h0 : ¬t.val % 62 = 0) (d0 : win0_0.block.Idx → EReal) (d1 : win0_1.block.Idx → BitVec 32) :
    k0_pay5 (F := Ideal) (grid0.coords t) (win0_1.fill (grid0.coords t) d1 (iblk m c 1 t))
      (win0_0.fill (grid0.coords t) d0 (iblk m c 0 t)) (sumsAt m c ⟨t.val - 1, Nat.lt_of_le_of_lt (Nat.sub_le _ _) t.isLt⟩) = sumsAt m c t := by
  funext j
  obtain ⟨z, h, d, rfl⟩ : ∃ (z : Fin 1) (h : Fin 32) (d : Fin 128), j = ix3 z h d := ⟨j 0, j 1, j 2, eq_ix3 j⟩
  obtain rfl : z = 0 := Subsingleton.elim _ _
  rw [pay5_apply, gain_sum m c t d0 d1 h d]
  show partSum _ _ (coreLo ⟨t.val - 1, _⟩) ((t.val - 1 + 1) * 16384) h d + _ = partSum _ _ (coreLo t) _ h d
  have e1 : coreLo ⟨t.val - 1, Nat.lt_of_le_of_lt (Nat.sub_le _ _) t.isLt⟩ = coreLo t := by unfold coreLo; dsimp only; omega
  have e2 : (t.val - 1 + 1) * 16384 = t.val * 16384 := by omega
  rw [e1, e2]
  exact partSum_split _ _ (by unfold coreLo; omega) (by omega) h d

theorem counts_first (c : Dev nD) (t : Fin cfg0.N) (h0 : t.val % 62 = 0) (d1 : win0_1.block.Idx → BitVec 32) :
    k0_pay1 (F := Ideal) (k0_pay6 (F := Ideal) (grid0.coords t) (win0_1.fill (grid0.coords t) d1 (iblk m c 1 t)) (k0_pay3 (F := Ideal)))
      = countsAt m c t := by
  funext j
  obtain ⟨z, h, z', rfl⟩ : ∃ (z : Fin 1) (h : Fin 32) (z' : Fin 1), j = ix3 z h z' := ⟨j 0, j 1, j 2, eq_ix3 j⟩
  obtain rfl : z = 0 := Subsingleton.elim _ _
  obtain rfl : z' = 0 := Subsingleton.elim _ _
  rw [pay6_apply, pay3_apply, zero_add, gain_count m c t d1 h]
  show partCount _ (t.val * 16384) _ h = partCount _ (coreLo t) _ h
  have e : coreLo t = t.val * 16384 := by unfold coreLo; omega
  rw [e]

theorem counts_later (c : Dev nD) (t : Fin cfg0.N) (h0 : ¬t.val % 62 = 0) (d1 : win0_1.block.Idx → BitVec 32) :
    k0_pay1 (F := Ideal) (k0_pay6 (F := Ideal) (grid0.coords t) (win0_1.fill (grid0.coords t) d1 (iblk m c 1 t))
      (countsAt m c ⟨t.val - 1, Nat.lt_of_le_of_lt (Nat.sub_le _ _) t.isLt⟩)) = countsAt m c t := by
  funext j
  obtain ⟨z, h, z', rfl⟩ : ∃ (z : Fin 1) (h : Fin 32) (z' : Fin 1), j = ix3 z h z' := ⟨j 0, j 1, j 2, eq_ix3 j⟩
  obtain rfl : z = 0 := Subsingleton.elim _ _
  obtain rfl : z' = 0 := Subsingleton.elim _ _
  rw [pay6_apply, gain_count m c t d1 h]
  show partCount _ (coreLo ⟨t.val - 1, _⟩) ((t.val - 1 + 1) * 16384) h + _ = partCount _ (coreLo t) _ h
  have e1 : coreLo ⟨t.val - 1, Nat.lt_of_le_of_lt (Nat.sub_le _ _) t.isLt⟩ = coreLo t := by unfold coreLo; dsimp only; omega
  have e2 : (t.val - 1 + 1) * 16384 = t.val * 16384 := by omega
  rw [e1, e2]
  exact partCount_split _ (by unfold coreLo; omega) (by omega) h

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the inputs' buffers stated on the rows inside the table, the outputs' whole. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t))

set_option maxHeartbeats 1000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  rw [before0 m c t d0, before1 m c t d1]
  by_cases h : t.val % 62 = 0
  · iapply (run_first (F := Ideal) c (grid0.coords t) _ _ _ _ _ _ _ _ ((first_iff t).mpr h)
      (win0_0.fill (grid0.coords t) d0 (iblk m c 0 t)) (win0_1.fill (grid0.coords t) d1 (iblk m c 1 t))
      ((dats m 0 c).before 2 t d2) ((dats m 0 c).before 3 t d3) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]
    · iexists d0; rw [Window.cut_fill]; iexact H0
    isplitl [H1]
    · iexists d1; rw [Window.cut_fill]; iexact H1
    isplitl [H2]
    · rw [← sums_first m c t h d0 d1]; iexact H2
    · rw [← counts_first m c t h d1]; iexact H3
  · rw [before2_later m c t h d2, before3_later m c t h d3]
    iapply (run_later (F := Ideal) c (grid0.coords t) _ _ _ _ _ _ _ _ (fun hf => h ((first_iff t).mp hf))
      (win0_0.fill (grid0.coords t) d0 (iblk m c 0 t)) (win0_1.fill (grid0.coords t) d1 (iblk m c 1 t))
      (sumsAt m c ⟨t.val - 1, Nat.lt_of_le_of_lt (Nat.sub_le _ _) t.isLt⟩)
      (countsAt m c ⟨t.val - 1, Nat.lt_of_le_of_lt (Nat.sub_le _ _) t.isLt⟩) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]
    · iexists d0; rw [Window.cut_fill]; iexact H0
    isplitl [H1]
    · iexists d1; rw [Window.cut_fill]; iexact H1
    isplitl [H2]
    · rw [← sums_later m c t h d0 d1]; iexact H2
    · rw [← counts_later m c t h d1]; iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

end Cert.KernelIdeal.HandValue

end
-- ==== Proof.KiFinal.lean ====
/-
  The idealized kernel's run, its frame, and what the two output arrays hold after it.

  Each output is written back twice: after a core's last step (points 61 and 123), one block per core. What is written
  back at point 61 + 62·k is the running sums (counts) after that point — over row numbers from the core's first row to
  the end of its last slot, the core's 62 slots whole. So the [2, 32, ·] arrays end holding, at core k, group h's column
  sums (row count) over row numbers [k · 1015808, (k + 1) · 1015808).
-/
import proofs.«403117_j25735444038246_2_alg».proof.Proof.KiBody
import proofs.«403117_j25735444038246_2_alg».proof.Proof.PayValue
import proofs.«403117_j25735444038246_2_alg».proof.Proof.SegSpec
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.HandBody Cert.KernelIdeal.PayValue Cert.SegSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The run -/

set_option backward.isDefEq.respectTransparency.types false in
/-- Every weakly fair execution of the idealized kernel's @main terminates; the pipeline's arrays end at what the
    proof data computes, every other buffer at what the host operations after the region compute from those. -/
theorem run_main : θ_run defs (onTc (τ := τ) (main (F := Ideal))) (s₀ m ρ)
    (Pipeline.FramePost cfgs (dats m) 0 (Pipeline.afterTail₀ cfgs (dats m) 0 (V0 m)
      [hostOps1, hostOps1_1, hostOps1_2, hostOps1_3, hostOps1_4, hostOps1_5, hostOps1_6])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1, hostOps1_1, hostOps1_2, hostOps1_3, hostOps1_4, hostOps1_5, hostOps1_6])
    (hsub := sfx_sub) (hfresh := sfx_fresh) (hkeep := sfx_keeps)
    (hmain := hmain m Variants.none) (hA := A_eq m) (hΦ := fun _ _ => rfl)

/-- The idealized kernel's frame: it runs, and the two argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-! ## The outputs' arrays after the run -/

theorem partSum_congr {x : Fin 2000000 → Fin 128 → EReal} {ids : Fin 2000000 → BitVec 32} {lo lo' hi hi' : Nat} {h h' : Fin 32} {d d' : Fin 128}
    (e1 : lo = lo') (e2 : hi = hi') (e3 : h.val = h'.val) (e4 : d.val = d'.val) :
    partSum x ids lo hi h d = partSum x ids lo' hi' h' d' := by
  subst e1 e2; rw [Fin.ext e3, Fin.ext e4]
theorem partCount_congr {ids : Fin 2000000 → BitVec 32} {lo lo' hi hi' : Nat} {h h' : Fin 32}
    (e1 : lo = lo') (e2 : hi = hi') (e3 : h.val = h'.val) : partCount ids lo hi h = partCount ids lo' hi' h' := by
  subst e1 e2; rw [Fin.ext e3]

/-- Each core's totals: group `h`'s column sums over the core's 62 slots of rows. -/
def sumsAll (c : Dev nD) : S2x32x128.Idx → EReal :=
  fun i => partSum (tab m c) (idw m c) ((i 0).val * 1015808) (((i 0).val + 1) * 1015808) (i 1) (i 2)
/-- Each core's row counts per group. -/
def countsAll (c : Dev nD) : S2x32x1.Idx → EReal :=
  fun i => partCount (idw m c) ((i 0).val * 1015808) (((i 0).val + 1) * 1015808) (i 1)

/-- What a core's last step writes back is its block of the totals. -/
theorem flushed2 (c : Dev nD) (t : Fin cfg0.N) (hf : (cfg0.win 2).flush t = true) :
    (dats m 0 c).flushed 2 t = ((cfg0.win 2).blk t).view.read (Elt Ideal) (sumsAll m c) := by
  have h61 := (flush0_2 t).mp hf
  funext y
  rw [View.read_apply]
  refine Eq.trans ?_ (cast_eq _ _).symm
  show (cfg0.win 2).cut (cfg0.grid.coords t) ((dats m 0 c).after 2 t) y = _
  rw [after2]
  have hy0 : (y 0).val < 1 := (y 0).isLt
  show partSum (tab m c) (idw m c) (coreLo t) ((t.val + 1) * 16384) _ _ = partSum (tab m c) (idw m c) _ _ _ _
  refine partSum_congr ?_ ?_ ?_ ?_
  · show coreLo t = (win0_2.index t 0 * 1 + 1 * (y 0).val) * 1015808
    rw [(index2 t).1]; unfold coreLo; omega
  · show (t.val + 1) * 16384 = (win0_2.index t 0 * 1 + 1 * (y 0).val + 1) * 1015808
    rw [(index2 t).1]; omega
  · show (y 1).val = win0_2.index t 1 * 32 + 1 * (y 1).val
    rw [(index2 t).2.1]; omega
  · show (y 2).val = win0_2.index t 2 * 128 + 1 * (y 2).val
    rw [(index2 t).2.2]; omega

theorem flushed3 (c : Dev nD) (t : Fin cfg0.N) (hf : (cfg0.win 3).flush t = true) :
    (dats m 0 c).flushed 3 t = ((cfg0.win 3).blk t).view.read (Elt Ideal) (countsAll m c) := by
  have h61 := (flush0_3 t).mp hf
  funext y
  rw [View.read_apply]
  refine Eq.trans ?_ (cast_eq _ _).symm
  show (cfg0.win 3).cut (cfg0.grid.coords t) ((dats m 0 c).after 3 t) y = _
  rw [after3]
  have hy0 : (y 0).val < 1 := (y 0).isLt
  show partCount (idw m c) (coreLo t) ((t.val + 1) * 16384) _ = partCount (idw m c) _ _ _
  refine partCount_congr ?_ ?_ ?_
  · show coreLo t = (win0_3.index t 0 * 1 + 1 * (y 0).val) * 1015808
    rw [(index3 t).1]; unfold coreLo; omega
  · show (t.val + 1) * 16384 = (win0_3.index t 0 * 1 + 1 * (y 0).val + 1) * 1015808
    rw [(index3 t).1]; omega
  · show (y 1).val = win0_3.index t 1 * 32 + 1 * (y 1).val
    rw [(index3 t).2.1]; omega

/-- Every entry of the sums' array lies in the block one of the two write-backs writes. -/
theorem cover2 (i : S2x32x128.Idx) : ∃ t : Fin cfg0.N, (cfg0.win 2).flush t = true ∧ i ∈ ((cfg0.win 2).blk t).view.set := by
  have h0 : (i 0).val < 2 := (i 0).isLt
  have h1 : (i 1).val < 32 := (i 1).isLt
  have h2 : (i 2).val < 128 := (i 2).isLt
  have hN : (i 0).val * 62 + 61 < cfg0.N := by rw [show cfg0.N = 124 from N_0]; omega
  refine ⟨⟨(i 0).val * 62 + 61, hN⟩, (flush0_2 _).mpr (by dsimp only; omega), ?_⟩
  show i ∈ ((View.whole main_v0_0).slice (win0_2.rect ⟨(i 0).val * 62 + 61, hN⟩)).set
  rw [View.set_slice_whole, Rect.mem_set_unit]
  intro a
  match a with
  | ⟨0, _⟩ =>
    show win0_2.index ⟨(i 0).val * 62 + 61, hN⟩ 0 * 1 ≤ (i 0).val ∧ (i 0).val < win0_2.index ⟨(i 0).val * 62 + 61, hN⟩ 0 * 1 + 1
    rw [(index2 _).1]; dsimp only; omega
  | ⟨1, _⟩ =>
    show win0_2.index ⟨(i 0).val * 62 + 61, hN⟩ 1 * 32 ≤ (i 1).val ∧ (i 1).val < win0_2.index ⟨(i 0).val * 62 + 61, hN⟩ 1 * 32 + 32
    rw [(index2 _).2.1]; omega
  | ⟨2, _⟩ =>
    show win0_2.index ⟨(i 0).val * 62 + 61, hN⟩ 2 * 128 ≤ (i 2).val ∧ (i 2).val < win0_2.index ⟨(i 0).val * 62 + 61, hN⟩ 2 * 128 + 128
    rw [(index2 _).2.2]; omega

theorem cover3 (i : S2x32x1.Idx) : ∃ t : Fin cfg0.N, (cfg0.win 3).flush t = true ∧ i ∈ ((cfg0.win 3).blk t).view.set := by
  have h0 : (i 0).val < 2 := (i 0).isLt
  have h1 : (i 1).val < 32 := (i 1).isLt
  have h2 : (i 2).val < 1 := (i 2).isLt
  have hN : (i 0).val * 62 + 61 < cfg0.N := by rw [show cfg0.N = 124 from N_0]; omega
  refine ⟨⟨(i 0).val * 62 + 61, hN⟩, (flush0_3 _).mpr (by dsimp only; omega), ?_⟩
  show i ∈ ((View.whole main_v0_1).slice (win0_3.rect ⟨(i 0).val * 62 + 61, hN⟩)).set
  rw [View.set_slice_whole, Rect.mem_set_unit]
  intro a
  match a with
  | ⟨0, _⟩ =>
    show win0_3.index ⟨(i 0).val * 62 + 61, hN⟩ 0 * 1 ≤ (i 0).val ∧ (i 0).val < win0_3.index ⟨(i 0).val * 62 + 61, hN⟩ 0 * 1 + 1
    rw [(index3 _).1]; dsimp only; omega
  | ⟨1, _⟩ =>
    show win0_3.index ⟨(i 0).val * 62 + 61, hN⟩ 1 * 32 ≤ (i 1).val ∧ (i 1).val < win0_3.index ⟨(i 0).val * 62 + 61, hN⟩ 1 * 32 + 32
    rw [(index3 _).2.1]; omega
  | ⟨2, _⟩ =>
    show win0_3.index ⟨(i 0).val * 62 + 61, hN⟩ 2 * 1 ≤ (i 2).val ∧ (i 2).val < win0_3.index ⟨(i 0).val * 62 + 61, hN⟩ 2 * 1 + 1
    rw [(index3 _).2.2]; omega

/-- The sums' array after the run: each core's totals. -/
theorem final2 (c : Dev nD) : (dats m 0 c).arrAt 2 cfg0.N = sumsAll m c :=
  (dats m 0 c).arrAt_eq_of_cover 2 (sumsAll m c) (fun t hf => flushed2 m c t hf) cover2
/-- The counts' array after the run. -/
theorem final3 (c : Dev nD) : (dats m 0 c).arrAt 3 cfg0.N = countsAll m c :=
  (dats m 0 c).arrAt_eq_of_cover 3 (countsAll m c) (fun t hf => flushed3 m c t hf) cover3

end Cert.KernelIdeal.HandValue

end
-- ==== Proof.Means.lean ====
/-
  The per-group mean, as the quotient the host's divide takes at the exact instance: group `h`'s column sum over
  the whole table divided by the group's row count (an empty group divides by zero, whatever that quotient is:
  both programs take the same one).
-/
import proofs.«403117_j25735444038246_2_alg».proof.Proof.SegSpec
import Idealize.ShloMosaic.PureOps.Ideal

noncomputable section

namespace Cert.SegSpec

open Idealize.ShloMosaic

/-- The table of group means: entry `(h, d)` is the sum of column `d` over group `h` divided by the group's size. -/
def means (x : Fin 2000000 → Fin 128 → EReal) (ids : Fin 2000000 → BitVec 32) : (⟨2, ![32, 128]⟩ : Shape).Idx → EReal :=
  fun j => Ideal.div (partSum x ids 0 2000000 (j 0) (j 1)) (partCount ids 0 2000000 (j 0))

end Cert.SegSpec

end
-- ==== Proof.RefValue.lean ====
import proofs.«403117_j25735444038246_2_alg».proof.Proof.Gen.ReferenceIdeal.Read
import proofs.«403117_j25735444038246_2_alg».proof.Proof.Means
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.SegSpec
open Idealize.ShloMosaic.TcCoe Idealize.SL.Sem Idealize.ShloMosaic.StableHlo

/-- The host's accumulating scatter at the exact instance, read at an index: the operand there plus the sum of the
    updates whose landing index is that index. -/
theorem scatterAdd_apply {s si u : Shape} {w : Nat} (d : ScatterDims s si u) (x : FVec Ideal s .f32)
    (idx : IVec si w) (upd : FVec Ideal u .f32) (i : s.Idx) :
    Host.scatterAdd d x idx upd i
      = x i + ∑ j ∈ Finset.univ.filter (fun j => d.resultIdx? j idx = some i), upd j := rfl

/-- A sum over the rank-2 indices that satisfy `p`, where `p` at `(a, b)` says "`Q a`, and `b` is the column `d`",
    is the sum over the rows satisfying `Q` of the entry in column `d`. -/
theorem sum_decode {n0 n1 : Nat} (p : (⟨2, ![n0, n1]⟩ : Shape).Idx → Prop) [DecidablePred p]
    (f : (⟨2, ![n0, n1]⟩ : Shape).Idx → EReal) (Q : Fin n0 → Prop) [DecidablePred Q] (d : Fin n1)
    (hp : ∀ a b, p (ix2 a b) ↔ Q a ∧ b.val = d.val) :
    ∑ j ∈ Finset.univ.filter p, f j = ∑ a : Fin n0, if Q a then f (ix2 a d) else 0 := by
  rw [Finset.sum_filter, sum_idx2]
  refine Finset.sum_congr rfl fun a _ => ?_
  rw [Finset.sum_eq_single d]
  · by_cases hQ : Q a
    · rw [if_pos ((hp a d).2 ⟨hQ, rfl⟩), if_pos hQ]
    · rw [if_neg (fun h => hQ ((hp a d).1 h).1), if_neg hQ]
  · intro b _ hb
    exact if_neg fun h => hb (Fin.ext ((hp a b).1 h).2)
  · intro h
    exact absurd (Finset.mem_univ d) h

/-- A rank-1 index set is its one coordinate's range. -/
def idxEquiv1 {n : Nat} : Fin n ≃ (⟨1, ![n]⟩ : Shape).Idx where
  toFun a := ix1 a
  invFun j := j 0
  left_inv _ := rfl
  right_inv j := (eq_ix1 j).symm

/-- A sum over the rank-1 indices that satisfy `p` is the sum over the coordinate of the `if`. -/
theorem sum_decode1 {n0 : Nat} (p : (⟨1, ![n0]⟩ : Shape).Idx → Prop) [DecidablePred p]
    (f : (⟨1, ![n0]⟩ : Shape).Idx → EReal) :
    ∑ j ∈ Finset.univ.filter p, f j = ∑ a : Fin n0, if p (ix1 a) then f (ix1 a) else 0 := by
  rw [Finset.sum_filter]
  exact (Equiv.sum_comp idxEquiv1 (fun j => if p j then f j else 0)).symm

/-- The record of the scatter that adds the rows into their groups' column sums. -/
abbrev dS := scatter_S32x128_S2000000x1_S2000000x128_1_0_0_1

/-- On the group axis the window of update `j` starts at the group id of `j`'s row, read signed. -/
theorem start0 (idx : IVec S2000000x1 32) (j : S2000000x128.Idx) :
    dS.start j idx (0 : Fin 2) = (idx (ix2 (j 0) 0)).toInt := by
  unfold ScatterDims.start
  rw [dif_pos (by decide)]
  congr 2
  funext b
  match b with
  | ⟨0, _⟩ => rfl
  | ⟨1, _⟩ => rfl

/-- On the column axis, which the index vector does not name, the window starts at 0. -/
theorem start1 (idx : IVec S2000000x1 32) (j : S2000000x128.Idx) :
    dS.start j idx (1 : Fin 2) = 0 := by
  unfold ScatterDims.start
  rw [dif_neg (by decide)]

/-- The group axis is an inserted one: the window coordinate there is 0. -/
theorem window0 (j : S2000000x128.Idx) : dS.window j (0 : Fin 2) = 0 := by
  unfold ScatterDims.window
  rw [dif_neg (by decide)]

/-- On the column axis the window coordinate is the update's column. -/
theorem window1 (j : S2000000x128.Idx) : dS.window j (1 : Fin 2) = (j 1).val := by
  unfold ScatterDims.window
  rw [dif_pos (by decide)]
  rfl

/-- Update `j` lands at `i` exactly when the group id of `j`'s row, read signed, is `i`'s group and the columns agree:
    an id that is no group number (negative, or 32 and above) lands nowhere. -/
theorem resultIdx_iff (idx : IVec S2000000x1 32) (j : S2000000x128.Idx) (i : S32x128.Idx) :
    dS.resultIdx? j idx = some i
      ↔ (idx (ix2 (j 0) 0)).toInt = ((i 0).val : Int) ∧ (j 1).val = (i 1).val := by
  have hi0 := idx2_lt0 i
  have hi1 := idx2_lt1 i
  unfold ScatterDims.resultIdx?
  by_cases h : ∀ a, 0 ≤ dS.start j idx a + dS.window j a ∧ dS.start j idx a + dS.window j a < S32x128.size a
  · rw [dif_pos h]
    have h0 := h (0 : Fin 2)
    have h1 := h (1 : Fin 2)
    rw [start0, window0] at h0
    rw [start1, window1] at h1
    constructor
    · intro e
      have e' := Option.some.inj e
      have e0 : (dS.start j idx (0 : Fin 2) + dS.window j (0 : Fin 2)).toNat = (i 0).val :=
        congrArg (fun f => (f (0 : Fin 2)).val) e'
      have e1 : (dS.start j idx (1 : Fin 2) + dS.window j (1 : Fin 2)).toNat = (i 1).val :=
        congrArg (fun f => (f (1 : Fin 2)).val) e'
      rw [start0, window0] at e0
      rw [start1, window1] at e1
      constructor <;> omega
    · rintro ⟨e0, e1⟩
      refine congrArg some (funext fun a => Fin.ext ?_)
      match a with
      | ⟨0, _⟩ =>
        show (dS.start j idx (0 : Fin 2) + dS.window j (0 : Fin 2)).toNat = (i 0).val
        rw [start0, window0]; omega
      | ⟨1, _⟩ =>
        show (dS.start j idx (1 : Fin 2) + dS.window j (1 : Fin 2)).toNat = (i 1).val
        rw [start1, window1]; omega
  · rw [dif_neg h]
    refine ⟨fun e => (by cases e), ?_⟩
    rintro ⟨e0, e1⟩
    refine absurd (fun a => ?_) h
    match a with
    | ⟨0, _⟩ =>
      show 0 ≤ dS.start j idx (0 : Fin 2) + dS.window j (0 : Fin 2)
        ∧ dS.start j idx (0 : Fin 2) + dS.window j (0 : Fin 2) < (32 : Nat)
      rw [start0, window0]; omega
    | ⟨1, _⟩ =>
      show 0 ≤ dS.start j idx (1 : Fin 2) + dS.window j (1 : Fin 2)
        ∧ dS.start j idx (1 : Fin 2) + dS.window j (1 : Fin 2) < (128 : Nat)
      rw [start1, window1]; omega

/-- The index array of either scatter, at row `a`, is the row's group id. -/
theorem idx_v1 (x1 : (⟨S2000000, .i32⟩ : BufTy).Contents (Elt Ideal)) (a : Fin 2000000) :
    val_main_v1 (F := Ideal) x1 (ix2 a 0) = x1 (ix1 a) := by
  rw [val_main_v1_apply]
  congr 1
  funext b
  match b with
  | ⟨0, _⟩ => rfl

/-- The first scatter's entry `(h, d)`: column `d` summed over the rows whose group id is `h`. -/
theorem sums_apply (x0 : (⟨S2000000x128, .f32⟩ : BufTy).Contents (Elt Ideal)) (x1 : (⟨S2000000, .i32⟩ : BufTy).Contents (Elt Ideal))
    (h : Fin 32) (d : Fin 128) :
    val_main_v2 (F := Ideal) x0 x1 (ix2 h d)
      = partSum (fun i d => x0 (ix2 i d)) (fun i => x1 (ix1 i)) 0 2000000 h d := by
  have hp : ∀ (a : Fin 2000000) (b : Fin 128),
      dS.resultIdx? (ix2 a b) (val_main_v1 (F := Ideal) x1) = some (ix2 h d)
        ↔ (x1 (ix1 a)).toInt = (h.val : Int) ∧ b.val = d.val := by
    intro a b
    rw [resultIdx_iff]
    show (val_main_v1 (F := Ideal) x1 (ix2 a 0)).toInt = (h.val : Int) ∧ b.val = d.val ↔ _
    rw [idx_v1]
  unfold val_main_v2
  rw [scatterAdd_apply, val_main_v0_apply, val_main_cst_apply, Ideal.ofBits_def, Ideal.ofBits_zero_f32, zero_add,
    sum_decode _ _ (fun a : Fin 2000000 => (x1 (ix1 a)).toInt = (h.val : Int)) d hp]
  exact Finset.sum_congr rfl fun a _ => if_congr ⟨fun e => ⟨Nat.zero_le _, a.isLt, e⟩, fun e => e.2.2⟩ rfl rfl

/-- The word `0x3F800000` is the number one. -/
theorem ofBits_one_f32 : Ideal.ofBits .f32 0x3F800000#32 = 1 := by
  simp [Ideal.ofBits, Ideal.ieee]
  rw [← EReal.coe_mul]
  norm_num

/-- The record of the scatter that counts the rows of each group. -/
abbrev dC := scatter_S32_S2000000x1_S2000000_n_0_0_1

/-- The window of update `j` starts at the group id of row `j`, read signed. -/
theorem cstart0 (idx : IVec S2000000x1 32) (j : S2000000.Idx) :
    dC.start j idx (0 : Fin 1) = (idx (ix2 (j 0) 0)).toInt := by
  unfold ScatterDims.start
  rw [dif_pos (by decide)]
  congr 2
  funext b
  match b with
  | ⟨0, _⟩ => rfl
  | ⟨1, _⟩ => rfl

/-- The one operand axis is an inserted one: the window coordinate is 0. -/
theorem cwindow0 (j : S2000000.Idx) : dC.window j (0 : Fin 1) = 0 := by
  unfold ScatterDims.window
  rw [dif_neg (by decide)]

/-- Update `j` lands at `i` exactly when the group id of row `j`, read signed, is `i`. -/
theorem cresultIdx_iff (idx : IVec S2000000x1 32) (j : S2000000.Idx) (i : S32.Idx) :
    dC.resultIdx? j idx = some i ↔ (idx (ix2 (j 0) 0)).toInt = ((i 0).val : Int) := by
  have hi0 : (i 0).val < 32 := (i 0).isLt
  unfold ScatterDims.resultIdx?
  by_cases h : ∀ a, 0 ≤ dC.start j idx a + dC.window j a ∧ dC.start j idx a + dC.window j a < S32.size a
  · rw [dif_pos h]
    have h0 := h (0 : Fin 1)
    rw [cstart0, cwindow0] at h0
    constructor
    · intro e
      have e' := Option.some.inj e
      have e0 : (dC.start j idx (0 : Fin 1) + dC.window j (0 : Fin 1)).toNat = (i 0).val :=
        congrArg (fun f => (f (0 : Fin 1)).val) e'
      rw [cstart0, cwindow0] at e0
      omega
    · intro e0
      refine congrArg some (funext fun a => Fin.ext ?_)
      match a with
      | ⟨0, _⟩ =>
        show (dC.start j idx (0 : Fin 1) + dC.window j (0 : Fin 1)).toNat = (i 0).val
        rw [cstart0, cwindow0]; omega
  · rw [dif_neg h]
    refine ⟨fun e => (by cases e), ?_⟩
    intro e0
    refine absurd (fun a => ?_) h
    match a with
    | ⟨0, _⟩ =>
      show 0 ≤ dC.start j idx (0 : Fin 1) + dC.window j (0 : Fin 1)
        ∧ dC.start j idx (0 : Fin 1) + dC.window j (0 : Fin 1) < (32 : Nat)
      rw [cstart0, cwindow0]; omega

theorem idx_v5 (x1 : (⟨S2000000, .i32⟩ : BufTy).Contents (Elt Ideal)) (a : Fin 2000000) :
    val_main_v5 (F := Ideal) x1 (ix2 a 0) = x1 (ix1 a) := by
  rw [val_main_v5_apply]
  congr 1
  funext b
  match b with
  | ⟨0, _⟩ => rfl

/-- The second scatter's entry `h`: a one for every row whose group id is `h`. -/
theorem counts_apply (x1 : (⟨S2000000, .i32⟩ : BufTy).Contents (Elt Ideal)) (h : Fin 32) :
    val_main_v6 (F := Ideal) x1 (ix1 h) = partCount (fun i => x1 (ix1 i)) 0 2000000 h := by
  unfold val_main_v6
  rw [scatterAdd_apply, val_main_v4_apply, val_main_cst_1_apply, Ideal.ofBits_def, Ideal.ofBits_zero_f32, zero_add,
    sum_decode1]
  refine Finset.sum_congr rfl fun a _ => ?_
  rw [val_main_v3_apply, val_main_cst_0_apply, Ideal.ofBits_def, ofBits_one_f32]
  refine if_congr ?_ rfl rfl
  rw [cresultIdx_iff]
  show (val_main_v5 (F := Ideal) x1 (ix2 a 0)).toInt = (h.val : Int) ↔ _
  rw [idx_v5]
  exact ⟨fun e => ⟨Nat.zero_le _, a.isLt, e⟩, fun e => e.2.2⟩

/-- The table the divide writes is the table of group means: entry `(h, d)` is the group's column sum over the
    group's row count. -/
theorem means_eq (x0 : (⟨S2000000x128, .f32⟩ : BufTy).Contents (Elt Ideal)) (x1 : (⟨S2000000, .i32⟩ : BufTy).Contents (Elt Ideal)) :
    val_main_v9 (F := Ideal) x0 x1 = means (fun i d => x0 (ix2 i d)) (fun i => x1 (ix1 i)) := by
  funext j
  obtain ⟨a, b, rfl⟩ : ∃ a b, j = ix2 a b := ⟨j 0, j 1, eq_ix2 j⟩
  have e : idx_main_v7 (idx_main_v8 (ix2 a b)) = ix1 a := by
    funext c
    match c with
    | ⟨0, _⟩ => rfl
  rw [val_main_v9_apply, Ideal.hostDivf_def, val_main_v8_apply, val_main_v7_apply, e, sums_apply, counts_apply]
  rfl

/-- Everything the program does after the table of means, as one function of that table. -/
def tail (mn : FVec Ideal S32x128 .f32) : FVec Ideal S_ .f32 :=
  let v10 : FVec Ideal S32x1x128 .f32 :=
    broadcastInDim S32x1x128 ![0, 2] bcast_S32x128_S32x1x128_0_2 mn
  let v11 : FVec Ideal S1x32x128 .f32 :=
    broadcastInDim S1x32x128 ![1, 2] bcast_S32x128_S1x32x128_1_2 mn
  let v12 : FVec Ideal S32x32x128 .f32 :=
    broadcastInDim S32x32x128 ![0, 1, 2] bcast_S32x1x128_S32x32x128_0_1_2 v10
  let v13 : FVec Ideal S32x32x128 .f32 :=
    broadcastInDim S32x32x128 ![0, 1, 2] bcast_S1x32x128_S32x32x128_0_1_2 v11
  let v14 : FVec Ideal S32x32x128 .f32 := subf v12 v13
  let v15 : FVec Ideal S32x32x128 .f32 := mulf v14 v14
  let v16 : FVec Ideal S32x32 .f32 :=
    Host.reduceAdd v15 (val_main_cst_2 (F := Ideal)) reducesTo_S32x32x128_S32x32_d2 h_S_
  let v19 : FVec Ideal S32x32 .f32 :=
    select (val_main_v18 (F := Ideal)) v16 (val_main_call1_v1 (F := Ideal))
  let v20 : FVec Ideal S32x32 .f32 := Host.sqrt v19
  let v21 : FVec Ideal S32x32 .f32 :=
    select (val_main_v18 (F := Ideal)) v20 (val_main_call2_v1 (F := Ideal))
  let v22 : FVec Ideal S_ .f32 :=
    Host.reduceAdd v21 (val_main_cst_5 (F := Ideal)) reducesTo_S32x32_S_d0_1 h_S_
  Host.divf v22 (val_main_cst_6 (F := Ideal))

/-- The program's result is the tail applied to the table of means. -/
theorem result_eq (x0 : (⟨S2000000x128, .f32⟩ : BufTy).Contents (Elt Ideal)) (x1 : (⟨S2000000, .i32⟩ : BufTy).Contents (Elt Ideal)) :
    val_main_v23 (F := Ideal) x0 x1 = tail (val_main_v9 (F := Ideal) x0 x1) := by
  unfold val_main_v23 val_main_v22 val_main_v21 val_main_v20 val_main_v19 val_main_v16 val_main_v15
    val_main_v14 val_main_v13 val_main_v12 val_main_v11 val_main_v10 tail
  rfl

end Cert.ReferenceIdeal.RefValue

end
-- ==== Proof.KiTail.lean ====
/-
  The idealized kernel's result: the host operations after the region, read on the two output arrays.

  The host adds the two cores' sums and the two cores' counts, spreads the counts along the columns and divides: the
  table of group means. Core 0's totals run over row numbers [0, 1015808), core 1's over [1015808, 2031616), and the
  table ends at 2000000: together they are each group's sum (count) over the whole table. Everything after the table of
  means is, operation for operation, what the reference does after ITS table of means.
-/
import proofs.«403117_j25735444038246_2_alg».proof.Proof.KiFinal
import proofs.«403117_j25735444038246_2_alg».proof.Proof.RefValue
import Idealize.ShloMosaic.Lib.StableHlo.Run
import Idealize.ShloMosaic.PureOps.Ideal.Laws
import Mathlib.Tactic.NormNum
import proofs.«403117_j25735444038246_2_alg».proof.Proof.PayValue
import proofs.«403117_j25735444038246_2_alg».proof.Proof.SegSpec
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.HandBody Cert.KernelIdeal.PayValue Cert.SegSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The table of means as the kernel's host operations compute it from the per-core totals: the two cores' sums
    added, the two cores' counts added and spread along the columns, the quotient. -/
def kmeans (S : FVec Ideal S2x32x128 .f32) (C : FVec Ideal S2x32x1 .f32) : FVec Ideal S32x128 .f32 :=
  Host.divf (Host.reduceAdd S (constant (F := Ideal) S_ .f32 0x00000000#32) Gen.reducesTo_S2x32x128_S32x128_d0 Gen.h_S_)
    (broadcastInDim S32x128 ![0, 1] Gen.bcast_S32x1_S32x128_0_1
      (Host.reduceAdd C (constant (F := Ideal) S_ .f32 0x00000000#32) Gen.reducesTo_S2x32x1_S32x1_d0 Gen.h_S_))

set_option maxHeartbeats 1000000 in
/-- The result buffer after the host operations that follow the region: the reference's tail of the kernel-side means. -/
theorem tail_value (c : Dev nD) :
    Pipeline.afterTail₀ cfgs (dats m) 0 (V0 m) [hostOps1, hostOps1_1, hostOps1_2, hostOps1_3, hostOps1_4, hostOps1_5, hostOps1_6] c main_v18
      = Cert.ReferenceIdeal.RefValue.tail (kmeans ((dats m 0 c).arrAt 2 cfg0.N) ((dats m 0 c).arrAt 3 cfg0.N)) := by
  unfold Pipeline.afterTail₀
  simp only [hostOps1, hostOps1_1, hostOps1_2, hostOps1_3, hostOps1_4, hostOps1_5, hostOps1_6, List.flatten_cons, List.flatten_nil,
    List.append_nil, List.cons_append, List.nil_append]
  after_results
  have e2 : Pipeline.withArrays (cfgs 0).spec c (V0 m c) (fun w => (dats m 0 c).arrAt w (cfgs 0).N) (Proc.tc.devRef main_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.tc.devRef main_v0_1)
      = (dats m 0 c).arrAt 3 cfg0.N := Pipeline.withArrays_arr spec0 launch0.win.arr_inj c _ _ 3
  rw [e2, e3]
  rfl

/-- A sum over an index set of two points. -/
theorem sum_fin_two {n : Nat} (hn : n = 2) (f : Fin n → EReal) : ∑ k : Fin n, f k = f ⟨0, by omega⟩ + f ⟨1, by omega⟩ := by
  subst hn; exact Fin.sum_univ_two f

/-- The host's zero word is zero. -/
theorem zero_word (i : S_.Idx) : (constant (F := Ideal) S_ .f32 0x00000000#32) i = 0 := Ideal.ofBits_zero_f32

/-- The two cores' sums added: the group's column sum over the whole table. -/
theorem sum_two_cores (c : Dev nD) (h : Fin 32) (d : Fin 128) :
    Host.reduceAdd (sumsAll m c) (constant (F := Ideal) S_ .f32 0x00000000#32) Gen.reducesTo_S2x32x128_S32x128_d0 Gen.h_S_ (ix2 h d)
      = partSum (tab m c) (idw m c) 0 2000000 h d := by
  have hR : S2x32x128.Reduces [0] S32x128 := by decide
  have k0 : (hR.lift (ix2 h d) ⟨0, by decide⟩ 0).val = 0 := rfl
  have s0 : sumsAll m c (hR.lift (ix2 h d) ⟨0, by decide⟩) = partSum (tab m c) (idw m c) 0 1015808 h d := by
    unfold sumsAll; rw [k0]; exact partSum_congr (by norm_num) (by norm_num) rfl rfl
  have k1 : (hR.lift (ix2 h d) ⟨1, by decide⟩ 0).val = 1 := rfl
  have s1 : sumsAll m c (hR.lift (ix2 h d) ⟨1, by decide⟩) = partSum (tab m c) (idw m c) 1015808 2031616 h d := by
    unfold sumsAll; rw [k1]; exact partSum_congr (by norm_num) (by norm_num) rfl rfl
  unfold Host.reduceAdd
  rw [Ideal.hostReduceAdd_def, Ideal.hostReduceAdd_single _ hR, sum_fin_two (n := S2x32x128.size 0) rfl, zero_word, zero_add, s0, s1,
    partSum_split _ _ (by omega) (by omega) h d]
  exact partSum_past_end _ _ 0 (by omega) (by omega) h d

/-- The two cores' counts added: the group's row count over the whole table. -/
theorem count_two_cores (c : Dev nD) (h : Fin 32) :
    Host.reduceAdd (countsAll m c) (constant (F := Ideal) S_ .f32 0x00000000#32) Gen.reducesTo_S2x32x1_S32x1_d0 Gen.h_S_ (ix2 h (0 : Fin 1))
      = partCount (idw m c) 0 2000000 h := by
  have hR : S2x32x1.Reduces [0] S32x1 := by decide
  have k0 : (hR.lift (ix2 h (0 : Fin 1)) ⟨0, by decide⟩ 0).val = 0 := rfl
  have s0 : countsAll m c (hR.lift (ix2 h (0 : Fin 1)) ⟨0, by decide⟩) = partCount (idw m c) 0 1015808 h := by
    unfold countsAll; rw [k0]; exact partCount_congr (by norm_num) (by norm_num) rfl
  have k1 : (hR.lift (ix2 h (0 : Fin 1)) ⟨1, by decide⟩ 0).val = 1 := rfl
  have s1 : countsAll m c (hR.lift (ix2 h (0 : Fin 1)) ⟨1, by decide⟩) = partCount (idw m c) 1015808 2031616 h := by
    unfold countsAll; rw [k1]; exact partCount_congr (by norm_num) (by norm_num) rfl
  unfold Host.reduceAdd
  rw [Ideal.hostReduceAdd_def, Ideal.hostReduceAdd_single _ hR, sum_fin_two (n := S2x32x1.size 0) rfl, zero_word, zero_add, s0, s1,
    partCount_split _ (by omega) (by omega) h]
  exact partCount_past_end _ 0 (by omega) (by omega) h

/-- The kernel-side means of the per-core totals are the table's group means. -/
theorem kmeans_eq (c : Dev nD) : kmeans (sumsAll m c) (countsAll m c) = means (tab m c) (idw m c) := by
  funext j
  obtain ⟨h, d, rfl⟩ : ∃ (h : Fin 32) (d : Fin 128), j = ix2 h d := ⟨j 0, j 1, eq_ix2 j⟩
  unfold kmeans means Host.divf
  rw [Ideal.hostDivf_def, sum_two_cores m c h d,
    broadcastInDim_apply _ Gen.bcast_S32x1_S32x128_0_1 _ (ix2 h d) (ix2 h (0 : Fin 1)) (fun a => match a with
      | ⟨0, _⟩ => by show h.val = if (32 : Nat) = 1 then 0 else h.val; rw [if_neg (by decide)]
      | ⟨1, _⟩ => by show (0 : Nat) = if (1 : Nat) = 1 then 0 else d.val; rw [if_pos rfl]),
    count_two_cores m c h]

end Cert.KernelIdeal.HandValue

end
-- ==== Proof.lean ====
/-
  Per-group means of a 2,000,000 × 128 table, then the average pairwise distance between the 32 group means: a kernel
  that streams the table in 16384-row blocks on a 2 × 62 grid against the plain segment-sum reference, equal over the
  extended reals for every finite table and EVERY vector of 32-bit ids.

  The kernel multiplies each block by the one-hot matrix [id r = h and the row is inside the table] and accumulates per
  core; the host adds the two cores, divides sums by counts, and finishes exactly as the reference does. The last block
  overhangs the table by 15232 rows, whose contents nothing names, and the slot past the last block re-reads it: both are
  weighted by the indicator 0, and 0 · x = 0 for every extended real x, so each block's gain is the group's column sum
  over the block's rows that are in the table. An id that is no group number matches no row of the one-hot matrix, and
  the reference's scatter drops it: both sides sum over the same rows. Sums of a range of rows split and regroup freely
  (addition on the extended reals is commutative and associative), so the two cores' totals are the reference's sums;
  no finiteness is used. The word-level kernel's frame needs nothing of the values: its buffers are owned, used and
  handed back at contents nothing states.
-/
import proofs.«403117_j25735444038246_2_alg».proof.Defs
import proofs.«403117_j25735444038246_2_alg».proof.Proof.Gen.Kernel
import proofs.«403117_j25735444038246_2_alg».proof.Proof.Gen.Kernel.Skeleton
import proofs.«403117_j25735444038246_2_alg».proof.Proof.Gen.Kernel.Launch
import proofs.«403117_j25735444038246_2_alg».proof.Proof.Gen.Kernel.Points
import proofs.«403117_j25735444038246_2_alg».proof.Proof.Gen.Kernel.Frame
import proofs.«403117_j25735444038246_2_alg».proof.Proof.Gen.KernelIdeal
import proofs.«403117_j25735444038246_2_alg».proof.Proof.Gen.KernelIdeal.Skeleton
import proofs.«403117_j25735444038246_2_alg».proof.Proof.Gen.KernelIdeal.Launch
import proofs.«403117_j25735444038246_2_alg».proof.Proof.Gen.KernelIdeal.Points
import proofs.«403117_j25735444038246_2_alg».proof.Proof.Gen.KernelIdeal.Frame
import proofs.«403117_j25735444038246_2_alg».proof.Proof.Gen.ReferenceIdeal
import proofs.«403117_j25735444038246_2_alg».proof.Proof.Gen.Pre_finite_inputs
import proofs.«403117_j25735444038246_2_alg».proof.Proof.Gen.ReferenceIdeal.Run
import proofs.«403117_j25735444038246_2_alg».proof.Proof.Gen.ReferenceIdeal.Read
import proofs.«403117_j25735444038246_2_alg».proof.Proof.KernelFrame
import proofs.«403117_j25735444038246_2_alg».proof.Proof.KiTail
import proofs.«403117_j25735444038246_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.HandFrame.frame (F := Bits) m ρ

/-- So does its idealization. -/
theorem frame_ki : Cert.frame_KernelIdeal := fun m ρ _ => Cert.KernelIdeal.HandValue.frame m ρ

/-- The reference is a host program: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the reference's tail of the table of group means of the (shared) arguments. -/
theorem algebraic : Cert.algebraic_KernelIdeal_ReferenceIdeal := by
  intro m ρ m' ρ' _ hagree
  refine ⟨fun c => Cert.ReferenceIdeal.RefValue.tail
    (Cert.SegSpec.means (Cert.KernelIdeal.HandValue.tab m c) (Cert.KernelIdeal.HandValue.idw m c)), ?_, ?_⟩
  · refine (θ_run Cert.KernelIdeal.defs _ _).mono (fun r h c => ⟨?_, ?_, ?_⟩) (Cert.KernelIdeal.HandValue.run_main m ρ)
    · rw [(h c).2 Cert.KernelIdeal.main_v18 (Pipeline.mem_restRefs_of _ rfl (fun w => by fin_cases w <;> decide)),
        Cert.KernelIdeal.HandValue.tail_value, Cert.KernelIdeal.HandValue.final2, Cert.KernelIdeal.HandValue.final3,
        Cert.KernelIdeal.HandValue.kmeans_eq]
    · exact ((h c).1 0).trans (((Cert.KernelIdeal.HandValue.dats m 0 c).arrAt_in 0 rfl _).trans
        ((Cert.KernelIdeal.HandValue.A_eq m c 0).trans (Cert.KernelIdeal.Gen.V_main_arg0 m c)))
    · exact ((h c).1 1).trans (((Cert.KernelIdeal.HandValue.dats m 0 c).arrAt_in 1 rfl _).trans
        ((Cert.KernelIdeal.HandValue.A_eq m c 1).trans (Cert.KernelIdeal.Gen.V_main_arg1 m c)))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.RefValue.result_eq, Cert.ReferenceIdeal.RefValue.means_eq,
      (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
